-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x300000 : Shape := ⟨2, ![2, 300000]⟩
abbrev S300000x64 : Shape := ⟨2, ![300000, 64]⟩
abbrev S64x256 : Shape := ⟨2, ![64, 256]⟩
abbrev S256 : Shape := ⟨1, ![256]⟩
abbrev S256x256 : Shape := ⟨2, ![256, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S20000x256 .f32) (main_arg1 : IVec S2x300000 32) (main_arg2 : FVec F S300000x64 .f32) (main_arg3 : FVec F S64x256 .f32) (main_arg4 : FVec F S256 .f32) (main_arg5 : FVec F S256x256 .f32) (main_arg6 : FVec F S256 .f32) (main_arg7 : FVec F S256 .f32) (main_arg8 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S300000x64 .f32 := Host.absf main_arg2
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S20000x256 : Shape := ⟨2, ![20000, 256]⟩
abbrev S2x300000 : Shape := ⟨2, ![2, 300000]⟩
abbrev S300000x64 : Shape := ⟨2, ![300000, 64]⟩
abbrev S64x256 : Shape := ⟨2, ![64, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S1x256 : Shape := ⟨2, ![1, 256]⟩
abbrev S300000x256 : Shape := ⟨2, ![300000, 256]⟩
abbrev S5000x64 : Shape := ⟨2, ![5000, 64]⟩
abbrev S5000x256 : Shape := ⟨2, ![5000, 256]⟩
abbrev S_ : Shape := ⟨0, ![]⟩
abbrev S300000x1 : Shape := ⟨2, ![300000, 1]⟩
abbrev S10x1x256 : Shape := ⟨3, ![10, 1, 256]⟩
abbrev S2000x256 : Shape := ⟨2, ![2000, 256]⟩
abbrev S1x1x256 : Shape := ⟨3, ![1, 1, 256]⟩

abbrev nBuf : Space → Nat
  | .hbm => 54
  | .vmem => 26
  | .smem => 0
  | _ => 0

abbrev bufTy : (tb : Table) → Fin (tcTables nBuf tb) → BufTy
  | .hbm, ⟨0, _⟩ => ⟨S20000x256, .f32⟩
  | .hbm, ⟨1, _⟩ => ⟨S2x300000, .i32⟩
  | .hbm, ⟨2, _⟩ => ⟨S300000x64, .f32⟩
  | .hbm, ⟨3, _⟩ => ⟨S64x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S1x256, .f32⟩
  | .hbm, ⟨14, _⟩ => ⟨S300000x256, .f32⟩
  | .hbm, ⟨15, _⟩ => ⟨S_, .i32⟩
  | .hbm, ⟨16, _⟩ => ⟨S300000, .i32⟩
  | .hbm, ⟨17, _⟩ => ⟨S300000, .i1⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S300000, .i32⟩
  | .hbm, ⟨22, _⟩ => ⟨S300000x1, .i32⟩
  | .hbm, ⟨23, _⟩ => ⟨S300000x256, .f32⟩
  | .hbm, ⟨24, _⟩ => ⟨S300000x256, .f32⟩
  | .hbm, ⟨25, _⟩ => ⟨S_, .f32⟩
  | .hbm, ⟨26, _⟩ => ⟨S300000x256, .f32⟩
  | .hbm, ⟨27, _⟩ => ⟨S300000x256, .f32⟩
  | .hbm, ⟨28, _⟩ => ⟨S_, .f32⟩
  | .hbm, ⟨29, _⟩ => ⟨S20000x256, .f32⟩
  | .hbm, ⟨30, _⟩ => ⟨S300000x1, .i32⟩
  | .hbm, ⟨31, _⟩ => ⟨S20000x256, .f32⟩
  | .hbm, ⟨32, _⟩ => ⟨S1x256, .f32⟩
  | .hbm, ⟨33, _⟩ => ⟨S20000x256, .f32⟩
  | .hbm, ⟨34, _⟩ => ⟨S10x1x256, .f32⟩
  | .hbm, ⟨35, _⟩ => ⟨S10x1x256, .f32⟩
  | .hbm, ⟨36, _⟩ => ⟨S_, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S20000x256, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S_S20000x256 : S_.BroadcastsInDim S20000x256 (![] : Fin 0 → Fin S20000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  reduces_S2000x256_S256 : S2000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S10x1x256_S1x256_d0 : S10x1x256.ReducesTo [0] S1x256
  h_S_ : 0 < S_.numel
  bcast_S_S1x256 : S_.BroadcastsInDim S1x256 (![] : Fin 0 → Fin S1x256.rank)
  dot_S5000x64_S64x256_S5000x256_1_0_0_1_n_n_wf : DotDims.WF S5000x64 S64x256 S5000x256 [1] [0] [0] [1] [] []
  gather_S20000x256_S300000x1_S300000x256_1_0_n_n_0_1_1256_wf : GatherDims.WF S20000x256 S300000x1 S300000x256 [1] [0] [] [0] [] 1 ![1, 256]
  scatter_S20000x256_S300000x1_S300000x256_1_0_0_1_wf : ScatterDims.WF S20000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S300000x64.size a
  hwx0_0 : ∀ i : grid0.Coords, EltTy.bits .f32 = 32 ∨ (Rect.block (s := S300000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S300000x256.size a
  hwx0_3 : ∀ i : grid0.Coords, EltTy.bits .f32 = 32 ∨ (Rect.block (s := S300000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S10x1x256.size a
  hwx1_5 : ∀ i : grid1.Coords, EltTy.bits .f32 = 32 ∨ (Rect.block (s := S10x1x256) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x256.size a ≤ S10x1x256.size a
  hwx1_6 : ∀ i : grid1.Coords, EltTy.bits .f32 = 32 ∨ (Rect.block (s := S10x1x256) S1x1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S1x1x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_2) S1x1x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x256 : Shape := ⟨2, ![20000, 256]⟩
abbrev S2x300000 : Shape := ⟨2, ![2, 300000]⟩
abbrev S300000x64 : Shape := ⟨2, ![300000, 64]⟩
abbrev S64x256 : Shape := ⟨2, ![64, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x300000, .i32⟩
  | .hbm, ⟨2, _⟩ => ⟨S300000x64, .f32⟩
  | .hbm, ⟨3, _⟩ => ⟨S64x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S300000x256, .f32⟩
  | .hbm, ⟨23, _⟩ => ⟨S300000x256, .f32⟩
  | .hbm, ⟨24, _⟩ => ⟨S1x256, .f32⟩
  | .hbm, ⟨25, _⟩ => ⟨S300000x256, .f32⟩
  | .hbm, ⟨26, _⟩ => ⟨S300000x256, .f32⟩
  | .hbm, ⟨27, _⟩ => ⟨S_, .f32⟩
  | .hbm, ⟨28, _⟩ => ⟨S300000x256, .f32⟩
  | .hbm, ⟨29, _⟩ => ⟨S300000x256, .f32⟩
  | .hbm, ⟨30, _⟩ => ⟨S_, .f32⟩
  | .hbm, ⟨31, _⟩ => ⟨S20000x256, .f32⟩
  | .hbm, ⟨32, _⟩ => ⟨S300000x1, .i32⟩
  | .hbm, ⟨33, _⟩ => ⟨S20000x256, .f32⟩
  | .hbm, ⟨34, _⟩ => ⟨S_, .f32⟩
  | .hbm, ⟨35, _⟩ => ⟨S20000x256, .f32⟩
  | .hbm, ⟨36, _⟩ => ⟨S20000x256, .f32⟩
  | .hbm, ⟨37, _⟩ => ⟨S20000x256, .f32⟩
  | .hbm, ⟨38, _⟩ => ⟨S20000x256, .f32⟩
  | .hbm, ⟨39, _⟩ => ⟨S1x256, .f32⟩
  | .hbm, ⟨40, _⟩ => ⟨S20000x256, .f32⟩
  | .hbm, ⟨41, _⟩ => ⟨S20000x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S20000x256, .f32⟩
  | .hbm, ⟨49, _⟩ => ⟨S20000x256, .f32⟩
  | .hbm, ⟨50, _⟩ => ⟨S20000x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S20000x256, .f32⟩
  | .hbm, ⟨58, _⟩ => ⟨S20000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S20000x256, .f32⟩
  | .hbm, ⟨65, _⟩ => ⟨S20000x256, .f32⟩
  | .hbm, ⟨66, _⟩ => ⟨S1x256, .f32⟩
  | .hbm, ⟨67, _⟩ => ⟨S20000x256, .f32⟩
  | .hbm, ⟨68, _⟩ => ⟨S20000x256, .f32⟩
  | .hbm, ⟨69, _⟩ => ⟨S1x256, .f32⟩
  | .hbm, ⟨70, _⟩ => ⟨S20000x256, .f32⟩
  | .hbm, ⟨71, _⟩ => ⟨S20000x256, .f32⟩
  | .hbm, ⟨72, _⟩ => ⟨S_, .f32⟩
  | .hbm, ⟨73, _⟩ => ⟨S20000x256, .f32⟩
  | .hbm, ⟨74, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S_S20000x256 : S_.BroadcastsInDim S20000x256 (![] : Fin 0 → Fin S20000x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  gather_S20000x256_S300000x1_S300000x256_1_0_n_n_0_1_1256_wf : GatherDims.WF S20000x256 S300000x1 S300000x256 [1] [0] [] [0] [] 1 ![1, 256]
  dot_S300000x64_S64x256_S300000x256_1_0_0_1_n_n_wf : DotDims.WF S300000x64 S64x256 S300000x256 [1] [0] [0] [1] [] []
  scatter_S20000x256_S300000x1_S300000x256_1_0_0_1_wf : ScatterDims.WF S20000x256 S300000x1 S300000x256 [1] [0] [0] 1
  dot_S20000x256_S256x256_S20000x256_1_0_0_1_n_n_wf : DotDims.WF S20000x256 S256x256 S20000x256 [1] [0] [0] [1] [] []

variable [Facts₀]

def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def dot_S300000x64_S64x256_S300000x256_1_0_0_1_n_n : DotDims S300000x64 S64x256 S300000x256 where
  lhsContracting := [1]
  rhsContracting := [0]
  lhsNonContracting := [0]
  rhsNonContracting := [1]
  lhsBatch := []
  rhsBatch := []
  wf := dot_S300000x64_S64x256_S300000x256_1_0_0_1_n_n_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Spec.lean ====
/-
  The mathematics of the two programs, index by index on the extended reals.

  One graph layer: an edge-linear term lin = ea · We + be, the messages max (g + lin) 0 of the gathered node rows g,
  their accumulation into nodes (kept abstract here: the same host gather and scatter on both sides), the node map
  out = (1 · x + agg) · W + b, the batch statistics of out over the 20000 nodes, and the normalisation
  max ((out − mean) · rsqrt (var + ε) · γ + β) 0.

  The kernel takes the statistics tile by tile (ten tiles of 2000 rows: per-tile sums of out and of out², then
  mean = Σ/N, var = max (Σ out²/N − mean², 0)); the reference takes mean = Σ out / N and
  var = Σ (out − mean)² / N. On finite values the two agree.
-/
import Idealize.ShloMosaic.PureOps.Ideal
import Idealize.ShloMosaic.Lib.ValueIdx

noncomputable section

open scoped BigOperators

namespace Cert.Spec

open Idealize.ShloMosaic Idealize.ShloMosaic.ValueIdx

/-- The literals of the two programs, as the extended reals their words denote. -/
abbrev zero32 : EReal := Ideal.ofBits .f32 0x00000000#32
abbrev one32 : EReal := Ideal.ofBits .f32 0x3F800000#32
abbrev n32 : EReal := Ideal.ofBits .f32 0x469C4000#32
abbrev eps32 : EReal := Ideal.ofBits .f32 0x3727C5AC#32

abbrev SNC : Shape := ⟨2, ![20000, 256]⟩
abbrev SEC : Shape := ⟨2, ![300000, 256]⟩
abbrev SEK : Shape := ⟨2, ![300000, 64]⟩
abbrev SKC : Shape := ⟨2, ![64, 256]⟩
abbrev SCC : Shape := ⟨2, ![256, 256]⟩
abbrev S1C : Shape := ⟨2, ![1, 256]⟩
abbrev SC : Shape := ⟨1, ![256]⟩
abbrev STC : Shape := ⟨3, ![10, 1, 256]⟩

/-- The edge-linear term at (e, j): the row e of ea against the column j of we, plus the bias. -/
def lin (ea : SEK.Idx → EReal) (we : SKC.Idx → EReal) (be : S1C.Idx → EReal) : SEC.Idx → EReal :=
  fun i => (∑ k : Fin 64, ea (ix2 (i 0) k) * we (ix2 k (i 1))) + be (ix2 0 (i 1))

/-- The kernel's messages: the gathered row plus the edge-linear term, clipped below at zero. -/
def msgK (g l : SEC.Idx → EReal) : SEC.Idx → EReal := fun i => max (g i + l i) zero32

/-- The node map at (n, j): row n of 1 · x + agg against column j of w, plus the bias. -/
def node (x agg : SNC.Idx → EReal) (w : SCC.Idx → EReal) (b : S1C.Idx → EReal) : SNC.Idx → EReal :=
  fun i => (∑ k : Fin 256, (one32 * x (ix2 (i 0) k) + agg (ix2 (i 0) k)) * w (ix2 k (i 1))) + b (ix2 0 (i 1))

/-- Row r of tile t. -/
abbrev tileRow (t : Fin 10) (r : Fin 2000) : Fin 20000 := ⟨2000 * t.val + r.val, by omega⟩

/-- The per-tile column sums of o, and of its squares. -/
def tileSum (o : SNC.Idx → EReal) : STC.Idx → EReal :=
  fun i => ∑ r : Fin 2000, o (ix2 (tileRow (i 0) r) (i 2))
def tileSq (o : SNC.Idx → EReal) : STC.Idx → EReal :=
  fun i => ∑ r : Fin 2000, o (ix2 (tileRow (i 0) r) (i 2)) * o (ix2 (tileRow (i 0) r) (i 2))

/-- The kernel's mean and variance from the per-tile partial sums. -/
def meanK (ps : STC.Idx → EReal) : S1C.Idx → EReal :=
  fun i => Ideal.div (zero32 + ∑ t : Fin 10, ps (ix3 t 0 (i 1))) n32
def varK (ps pq : STC.Idx → EReal) : S1C.Idx → EReal :=
  fun i => max (Ideal.div (zero32 + ∑ t : Fin 10, pq (ix3 t 0 (i 1))) n32 - meanK ps i * meanK ps i) zero32

/-- The normalisation at (n, j) from a mean, a variance, a scale and a shift per column. -/
def bn (o : SNC.Idx → EReal) (mean var gamma beta : S1C.Idx → EReal) : SNC.Idx → EReal :=
  fun i => max ((o i - mean (ix2 0 (i 1))) * Ideal.rsqrt (var (ix2 0 (i 1)) + eps32) * gamma (ix2 0 (i 1)) + beta (ix2 0 (i 1))) zero32

/-- The reference's mean and variance over all the rows. -/
def meanR (o : SNC.Idx → EReal) : S1C.Idx → EReal :=
  fun i => Ideal.div (zero32 + ∑ n : Fin 20000, o (ix2 n (i 1))) n32
def varR (o : SNC.Idx → EReal) : S1C.Idx → EReal :=
  fun i => Ideal.div (zero32 + ∑ n : Fin 20000, (o (ix2 n (i 1)) - meanR o i) * (o (ix2 n (i 1)) - meanR o i)) n32

/-- The reference's messages: the same three terms, associated the other way. -/
def msgR (g : SEC.Idx → EReal) (ea : SEK.Idx → EReal) (we : SKC.Idx → EReal) (be : S1C.Idx → EReal) : SEC.Idx → EReal :=
  fun i => max ((g i + ∑ k : Fin 64, ea (ix2 (i 0) k) * we (ix2 k (i 1))) + be (ix2 0 (i 1))) zero32

/-- A vector [256] read as the row [1, 256]. -/
def row (v : SC.Idx → EReal) : S1C.Idx → EReal := fun i => v (ix1 (i 1))

/-- The kernel's result from the argument arrays, the gathered rows g and the accumulation scat of messages into nodes. -/
def kernelSpec (x : SNC.Idx → EReal) (ea : SEK.Idx → EReal) (we : SKC.Idx → EReal) (be : SC.Idx → EReal) (w : SCC.Idx → EReal)
    (b gamma beta : SC.Idx → EReal) (g : SEC.Idx → EReal) (scat : (SEC.Idx → EReal) → SNC.Idx → EReal) : SNC.Idx → EReal :=
  bn (node x (scat (msgK g (lin ea we (row be)))) w (row b))
    (meanK (tileSum (node x (scat (msgK g (lin ea we (row be)))) w (row b))))
    (varK (tileSum (node x (scat (msgK g (lin ea we (row be)))) w (row b))) (tileSq (node x (scat (msgK g (lin ea we (row be)))) w (row b))))
    (row gamma) (row beta)

/-- The reference's result from the same. -/
def refSpec (x : SNC.Idx → EReal) (ea : SEK.Idx → EReal) (we : SKC.Idx → EReal) (be : SC.Idx → EReal) (w : SCC.Idx → EReal)
    (b gamma beta : SC.Idx → EReal) (g : SEC.Idx → EReal) (scat : (SEC.Idx → EReal) → SNC.Idx → EReal) : SNC.Idx → EReal :=
  bn (node x (scat (msgR g ea we (row be))) w (row b))
    (meanR (node x (scat (msgR g ea we (row be))) w (row b)))
    (varR (node x (scat (msgR g ea we (row be))) w (row b)))
    (row gamma) (row beta)

/-- Every entry is a real number. -/
def AllReal {S : Shape} (v : S.Idx → EReal) : Prop := ∀ i, ∃ r : ℝ, v i = (r : EReal)

end Cert.Spec

end
-- ==== Proof.Algebra.lean ====
/-
  The two formulas are one function on real values.

  Per column, with o the 20000 real entries of the node map: the ten per-tile sums add up to the sum over all rows
  (a sum over Fin 10 × Fin 2000 re-indexed over Fin 20000), so the two means agree; and with μ = Σ o / N,
  Σ (o − μ)² / N = Σ o² / N − μ², a nonnegative real, so the kernel's clip at zero changes nothing and the two
  variances agree. The messages differ only by the association of a three-term sum. Every entry of the node map is
  real when the arguments, the gathered rows and the accumulation are.
-/
import proofs.«412111_j7258494730825_3_alg».proof.Proof.Spec
import Mathlib.Tactic.Ring
import Mathlib.Tactic.NormNum
import Mathlib.Logic.Equiv.Fin.Basic

noncomputable section

open scoped BigOperators

namespace Cert.Spec

open Idealize.ShloMosaic Idealize.ShloMosaic.ValueIdx

/-! ## The three literal words that are evaluated: 0, 1 and 20000 -/

/-- The zero word denotes 0. -/
private theorem zero32_eq : zero32 = 0 := by simp [Ideal.ofBits, Ideal.ieee]

/-- The word of 1.0 denotes the real 1. -/
private theorem one32_eq : one32 = ((1 : ℝ) : EReal) := by
  simp [Ideal.ofBits, Ideal.ieee, -EReal.coe_mul]; norm_num

/-- The word of 20000.0 denotes the real 20000: exponent 14, significand 10240000 / 2 ^ 23. -/
private theorem n32_eq : n32 = ((20000 : ℝ) : EReal) := by
  simp [Ideal.ofBits, Ideal.ieee, -EReal.coe_mul]; norm_num

/-! ## Being the coercion of a real: closed under sums, products, maxima and finite sums -/

/-- An extended real that is the coercion of a real. -/
private def IsR (z : EReal) : Prop := ∃ r : ℝ, z = (r : EReal)

private theorem IsR.add {a b : EReal} (ha : IsR a) (hb : IsR b) : IsR (a + b) := by
  obtain ⟨r, rfl⟩ := ha; obtain ⟨s, rfl⟩ := hb; exact ⟨r + s, (EReal.coe_add r s).symm⟩

private theorem IsR.mul {a b : EReal} (ha : IsR a) (hb : IsR b) : IsR (a * b) := by
  obtain ⟨r, rfl⟩ := ha; obtain ⟨s, rfl⟩ := hb; exact ⟨r * s, (EReal.coe_mul r s).symm⟩

/-- A maximum is one of its two arguments. -/
private theorem IsR.max {a b : EReal} (ha : IsR a) (hb : IsR b) : IsR (max a b) := by
  rcases le_total a b with h | h
  · rw [max_eq_right h]; exact hb
  · rw [max_eq_left h]; exact ha

private theorem IsR.sum {ι : Type} (s : Finset ι) (f : ι → EReal) (h : ∀ i ∈ s, IsR (f i)) : IsR (∑ i ∈ s, f i) :=
  Finset.sum_induction f IsR (fun _ _ => IsR.add) ⟨0, rfl⟩ h

private theorem zero32_real : IsR zero32 := ⟨0, zero32_eq⟩
private theorem one32_real : IsR one32 := ⟨1, one32_eq⟩

/-- The coercion of a finite sum of reals is the sum of the coercions. -/
private theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The messages and the node map keep real entries real -/

private theorem msgR_real {g : SEC.Idx → EReal} {ea : SEK.Idx → EReal} {we : SKC.Idx → EReal} {be' : S1C.Idx → EReal}
    (hg : AllReal g) (hea : AllReal ea) (hwe : AllReal we) (hbe : AllReal be') : AllReal (msgR g ea we be') := by
  intro i
  show IsR (max ((g i + ∑ k : Fin 64, ea (ix2 (i 0) k) * we (ix2 k (i 1))) + be' (ix2 0 (i 1))) zero32)
  exact IsR.max (IsR.add (IsR.add (hg _) (IsR.sum _ _ fun k _ => IsR.mul (hea _) (hwe _))) (hbe _)) zero32_real

private theorem node_real {x agg : SNC.Idx → EReal} {w : SCC.Idx → EReal} {b' : S1C.Idx → EReal}
    (hx : AllReal x) (hagg : AllReal agg) (hw : AllReal w) (hb : AllReal b') : AllReal (node x agg w b') := by
  intro i
  show IsR ((∑ k : Fin 256, (one32 * x (ix2 (i 0) k) + agg (ix2 (i 0) k)) * w (ix2 k (i 1))) + b' (ix2 0 (i 1)))
  exact IsR.add (IsR.sum _ _ fun k _ => IsR.mul (IsR.add (IsR.mul one32_real (hx _)) (hagg _)) (hw _)) (hb _)

/-! ## Ten tiles of 2000 rows are the 20000 rows -/

/-- The pair (tile, row in the tile) against the row number 2000 · tile + row. -/
private def tileEquiv : Fin 10 × Fin 2000 ≃ Fin 20000 :=
  finProdFinEquiv.trans (finCongr (by norm_num))

/-- A sum tile by tile is the sum over all rows, in any additive commutative monoid. -/
private theorem sum_tiles {M : Type} [AddCommMonoid M] (f : Fin 20000 → M) :
    ∑ t : Fin 10, ∑ r : Fin 2000, f (tileRow t r) = ∑ n : Fin 20000, f n := by
  calc ∑ t : Fin 10, ∑ r : Fin 2000, f (tileRow t r)
      = ∑ p : Fin 10 × Fin 2000, f (tileRow p.1 p.2) :=
        (Fintype.sum_prod_type (fun p : Fin 10 × Fin 2000 => f (tileRow p.1 p.2))).symm
    _ = ∑ n : Fin 20000, f n := by
        refine Fintype.sum_equiv tileEquiv _ _ (fun p => ?_)
        obtain ⟨t, r⟩ := p
        congr 1
        apply Fin.ext
        show 2000 * t.val + r.val = r.val + 2000 * t.val
        exact Nat.add_comm _ _

/-- The two means agree, on any values. -/
private theorem mean_eq (o : SNC.Idx → EReal) : meanK (tileSum o) = meanR o := by
  funext i
  show Ideal.div (zero32 + ∑ t : Fin 10, ∑ r : Fin 2000, o (ix2 (tileRow t r) (i 1))) n32
      = Ideal.div (zero32 + ∑ n : Fin 20000, o (ix2 n (i 1))) n32
  rw [sum_tiles (fun n => o (ix2 n (i 1)))]

/-! ## The variance identity on the reals -/

/-- With μ = Σ a / N over N = 20000 reals: Σ a² / N − μ² = Σ (a − μ)² / N. -/
private theorem var_real (a : Fin 20000 → ℝ) :
    (∑ n, a n * a n) * (1 / 20000) - (∑ n, a n) * (1 / 20000) * ((∑ n, a n) * (1 / 20000))
      = (∑ n, (a n - (∑ m, a m) * (1 / 20000)) * (a n - (∑ m, a m) * (1 / 20000))) * (1 / 20000) := by
  have h : ∀ n, (a n - (∑ m, a m) * (1 / 20000)) * (a n - (∑ m, a m) * (1 / 20000))
      = a n * a n - 2 * ((∑ m, a m) * (1 / 20000)) * a n
        + ((∑ m, a m) * (1 / 20000)) * ((∑ m, a m) * (1 / 20000)) := fun n => by ring
  simp only [h]
  rw [Finset.sum_add_distrib, Finset.sum_sub_distrib, ← Finset.mul_sum, Finset.sum_const, Finset.card_univ,
    Fintype.card_fin, nsmul_eq_mul]
  push_cast
  ring

/-- The two variances agree on real values. -/
private theorem var_eq (o : SNC.Idx → EReal) (ho : AllReal o) : varK (tileSum o) (tileSq o) = varR o := by
  funext i
  show max (Ideal.div (zero32 + ∑ t : Fin 10, ∑ r : Fin 2000,
        o (ix2 (tileRow t r) (i 1)) * o (ix2 (tileRow t r) (i 1))) n32
        - meanK (tileSum o) i * meanK (tileSum o) i) zero32
      = Ideal.div (zero32 + ∑ n : Fin 20000, (o (ix2 n (i 1)) - meanR o i) * (o (ix2 n (i 1)) - meanR o i)) n32
  rw [mean_eq o, sum_tiles (fun n => o (ix2 n (i 1)) * o (ix2 n (i 1)))]
  choose a ha using fun n : Fin 20000 => ho (ix2 n (i 1))
  have hμ : meanR o i = (((∑ n, a n) * (1 / 20000) : ℝ) : EReal) := by
    show Ideal.div (zero32 + ∑ n : Fin 20000, o (ix2 n (i 1))) n32 = _
    rw [n32_eq, Ideal.div_coe (by norm_num), zero32_eq, zero_add]
    simp only [ha]
    rw [← coe_sum, ← EReal.coe_mul]
  rw [hμ, n32_eq, Ideal.div_coe (by norm_num), Ideal.div_coe (by norm_num), zero32_eq, zero_add, zero_add]
  simp only [ha]
  simp only [← EReal.coe_mul, ← EReal.coe_sub, ← coe_sum]
  rw [var_real a]
  exact max_eq_left (EReal.coe_nonneg.mpr
    (mul_nonneg (Finset.sum_nonneg fun n _ => mul_self_nonneg _) (by norm_num)))

/-! ## The two formulas -/

/-- On real arguments, with real gathered rows and an accumulation that keeps real entries real, the kernel's
    formula and the reference's are one function. -/
theorem kernelSpec_eq_refSpec (x : SNC.Idx → EReal) (ea : SEK.Idx → EReal) (we : SKC.Idx → EReal) (be : SC.Idx → EReal)
    (w : SCC.Idx → EReal) (b gamma beta : SC.Idx → EReal) (g : SEC.Idx → EReal) (scat : (SEC.Idx → EReal) → SNC.Idx → EReal)
    (hx : AllReal x) (hea : AllReal ea) (hwe : AllReal we) (hbe : AllReal be) (hw : AllReal w) (hb : AllReal b)
    (hg : AllReal g) (hscat : ∀ u, AllReal u → AllReal (scat u)) :
    kernelSpec x ea we be w b gamma beta g scat = refSpec x ea we be w b gamma beta g scat := by
  have hmsg : msgK g (lin ea we (row be)) = msgR g ea we (row be) := by
    funext i
    show max (g i + ((∑ k : Fin 64, ea (ix2 (i 0) k) * we (ix2 k (i 1))) + row be (ix2 0 (i 1)))) zero32
        = max ((g i + ∑ k : Fin 64, ea (ix2 (i 0) k) * we (ix2 k (i 1))) + row be (ix2 0 (i 1))) zero32
    rw [add_assoc]
  have hbeR : AllReal (row be) := fun _ => hbe _
  have hbR : AllReal (row b) := fun _ => hb _
  have hoR : AllReal (node x (scat (msgR g ea we (row be))) w (row b)) :=
    node_real hx (hscat _ (msgR_real hg hea hwe hbeR)) hw hbR
  unfold kernelSpec refSpec
  rw [hmsg, mean_eq, var_eq _ hoR]

end Cert.Spec

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.Gather.lean ====
/-
  The two irregular host steps both programs share, as functions of the node array and the edge index pairs:
  the row take x[src] (negative indices wrapped once by the node count, then clamped by the gather itself) and the
  accumulation of message rows into the zero array at dst. Both keep real entries real: a taken row is a row of x,
  and an accumulated entry is zero plus a finite sum of message entries.
-/
import proofs.«412111_j7258494730825_3_alg».proof.KernelIdeal
import proofs.«412111_j7258494730825_3_alg».proof.Proof.Gen.KernelIdeal
import proofs.«412111_j7258494730825_3_alg».proof.Proof.Spec
import proofs.«412111_j7258494730825_3_alg».proof.Proof.LibRows

noncomputable section

open scoped BigOperators

namespace Cert.Shared

open Idealize.ShloMosaic Idealize.ShloMosaic.ValueIdx Cert.KernelIdeal Cert.KernelIdeal.Facts₀ Cert.Spec

/-- The source node of every edge, as the gather's start indices [E, 1]: row 0 of the index pairs, a negative index
    moved up by the node count. -/
def srcIdx (ei : IVec S2x300000 32) : IVec S300000x1 32 :=
  broadcastInDim S300000x1 ![0] bcast_S300000_S300000x1_0
    (select (cmpi .slt (shapeCast S300000 (extractStridedSlice S1x300000 ![0, 0] ei slices_S2x300000_S1x300000_0_0) shapeCasts_S1x300000_S300000)
        (broadcastInDim S300000 ![] bcast_S_S300000 (constantI S_ 32 0#32)))
      (addi (shapeCast S300000 (extractStridedSlice S1x300000 ![0, 0] ei slices_S2x300000_S1x300000_0_0) shapeCasts_S1x300000_S300000)
        (broadcastInDim S300000 ![] bcast_S_S300000 (constantI S_ 32 20000#32)))
      (shapeCast S300000 (extractStridedSlice S1x300000 ![0, 0] ei slices_S2x300000_S1x300000_0_0) shapeCasts_S1x300000_S300000))

/-- The destination node of every edge, as the scatter's indices [E, 1]: row 1 of the index pairs. -/
def dstIdx (ei : IVec S2x300000 32) : IVec S300000x1 32 :=
  broadcastInDim S300000x1 ![0] bcast_S300000_S300000x1_0
    (shapeCast S300000 (extractStridedSlice S1x300000 ![1, 0] ei slices_S2x300000_S1x300000_1_0) shapeCasts_S1x300000_S300000)

/-- The gathered node rows x[src]. -/
def gath (x : FVec Ideal S20000x256 .f32) (ei : IVec S2x300000 32) : FVec Ideal S300000x256 .f32 :=
  Host.gather gather_S20000x256_S300000x1_S300000x256_1_0_n_n_0_1_1256 x (srcIdx ei)

/-- The messages accumulated into their destination nodes, from the zero array. -/
def scat (ei : IVec S2x300000 32) (u : FVec Ideal S300000x256 .f32) : FVec Ideal S20000x256 .f32 :=
  Host.scatterAdd scatter_S20000x256_S300000x1_S300000x256_1_0_0_1
    (broadcastInDim S20000x256 ![] bcast_S_S20000x256 (constant S_ .f32 0x00000000#32)) (dstIdx ei) u

/-- The printed dimension record of the row take is the general one at 20000 nodes, 256 columns, 300000 edges. -/
private theorem gatherDims_eq :
    gather_S20000x256_S300000x1_S300000x256_1_0_n_n_0_1_1256
      = Cert.Lib.Rows.gatherDims 20000 256 300000 gather_S20000x256_S300000x1_S300000x256_1_0_n_n_0_1_1256_wf := rfl

/-- The printed dimension record of the row accumulation is the general one at the same sizes. -/
private theorem scatterDims_eq :
    scatter_S20000x256_S300000x1_S300000x256_1_0_0_1
      = Cert.Lib.Rows.scatterRowsDims 20000 256 300000 scatter_S20000x256_S300000x1_S300000x256_1_0_0_1_wf := rfl

/-- The all-zero word has exponent field 0 and fraction field 0: it denotes the real number 0. -/
private theorem zero_word : Ideal.ofBits .f32 0x00000000#32 = ((0 : ℝ) : EReal) := by
  simp [Ideal.ofBits, Ideal.ieee]

/-- A finite sum of real numbers, taken in the extended reals, is a real number. -/
private theorem sum_real {ι : Type} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih (fun k hk => hf k (Finset.mem_insert_of_mem hk))
    exact ⟨r + t, by rw [Finset.sum_insert ha, hr, ht, EReal.coe_add]⟩

/-- A gathered entry is an entry of x. -/
theorem gath_real (x : FVec Ideal S20000x256 .f32) (ei : IVec S2x300000 32) (hx : AllReal (S := SNC) x) :
    AllReal (S := SEC) (gath x ei) := by
  intro i
  obtain ⟨k, c, rfl⟩ : ∃ (k : Fin 300000) (c : Fin 256), i = ix2 k c :=
    ⟨i 0, i 1, eq_ix2 (n0 := 300000) (n1 := 256) i⟩
  unfold gath
  rw [gatherDims_eq, Cert.Lib.Rows.gather_rows_apply (by omega)]
  exact hx _

/-- An accumulated entry is zero plus a finite sum of message entries. -/
theorem scat_real (ei : IVec S2x300000 32) (u : FVec Ideal S300000x256 .f32) (hu : AllReal (S := SEC) u) :
    AllReal (S := SNC) (scat ei u) := by
  intro i
  obtain ⟨n, c, rfl⟩ : ∃ (n : Fin 20000) (c : Fin 256), i = ix2 n c :=
    ⟨i 0, i 1, eq_ix2 (n0 := 20000) (n1 := 256) i⟩
  unfold scat Host.scatterAdd
  rw [Ideal.hostScatterAdd_def, scatterDims_eq, Cert.Lib.Rows.hostScatterAdd_rows_apply]
  -- the entry of the zero array is the real number 0
  have h0 : broadcastInDim S20000x256 ![] bcast_S_S20000x256 (constant (F := Ideal) S_ .f32 0x00000000#32) (ix2 n c)
      = ((0 : ℝ) : EReal) := by
    exact zero_word
  -- every summand is a message entry or the real number 0
  obtain ⟨t, ht⟩ := sum_real Finset.univ
    (fun k : Fin 300000 => if ((dstIdx ei) (ix2 k (0 : Fin 1))).toInt = (n.val : Int) then u (ix2 k c) else 0)
    (fun k _ => by
      by_cases h : ((dstIdx ei) (ix2 k (0 : Fin 1))).toInt = (n.val : Int)
      · rw [if_pos h]; exact hu _
      · rw [if_neg h]; exact ⟨0, EReal.coe_zero.symm⟩)
  exact ⟨0 + t, by rw [h0, ht, EReal.coe_add]⟩

end Cert.Shared

end
-- ==== Proof.Finite.lean ====
/-
  From the precondition to real entries: each float argument's absolute value is below +∞ at every index, so each
  entry is neither infinity, hence a real number.
-/
import proofs.«412111_j7258494730825_3_alg».proof.Pre_finite_inputs
import proofs.«412111_j7258494730825_3_alg».proof.Proof.Gen.Pre_finite_inputs
import proofs.«412111_j7258494730825_3_alg».proof.Proof.Spec
import Idealize.ShloMosaic.Lib.ReduceAll

noncomputable section

namespace Cert.Finite

open Idealize.ShloMosaic Idealize.ShloMosaic.ValueIdx Cert.Pre_finite_inputs Cert.Spec

/-- The word 0x7F800000 denotes +∞. -/
private theorem inf32 : Ideal.ofBits .f32 0x7F800000#32 = (⊤ : EReal) := by
  simp [Ideal.ofBits, Ideal.ieee]

/-- An extended real whose absolute value max x (−x) is strictly below +∞ is a real number: at either infinity the
    absolute value is +∞ itself. -/
private theorem real_of_abs_lt (x : EReal)
    (h : Ideal.cmp .olt (max x (-x)) (Ideal.ofBits .f32 0x7F800000#32) = 1#1) : ∃ r : ℝ, x = (r : EReal) := by
  rw [inf32] at h
  unfold Ideal.cmp at h
  induction x using EReal.rec with
  | bot => simp at h
  | coe r => exact ⟨r, rfl⟩
  | top => simp at h

/-- The rank-zero index set has one element. -/
private instance subsingleton_S_ : Subsingleton S_.Idx := ⟨fun a b => funext fun d => d.elim0⟩

/-- One conjunct read back: where the conjunction over all indices of |a| < +∞ is one, every entry of a is real. -/
private theorem allReal_of_all {S : Shape} {axes : List (Fin S.rank)} (hb : S_.BroadcastsInDim S (![] : Fin 0 → Fin S.rank))
    (hr : S.ReducesTo axes S_) (hS : 0 < S_.numel) (a : FVec Ideal S .f32)
    (h : Host.reduce IntOp.andi (cmpf .olt (Host.absf a) (broadcastInDim S ![] hb (constant S_ .f32 0x7F800000#32)))
          (constantI S_ 1 1#1) hr hS ix0 = 1#1) :
    AllReal (S := S) a := by
  intro i
  exact real_of_abs_lt (a i) (Host.reduce_andi_all _ _ hr hS ix0 h i)

/-- Where the finiteness predicate is all ones, the six float arguments the statistics depend on have real entries. -/
theorem inputs_real [Cert.Pre_finite_inputs.Facts]
    (a0 : FVec Ideal S20000x256 .f32) (a1 : IVec S2x300000 32) (a2 : FVec Ideal S300000x64 .f32) (a3 : FVec Ideal S64x256 .f32)
    (a4 : FVec Ideal S256 .f32) (a5 : FVec Ideal S256x256 .f32) (a6 a7 a8 : FVec Ideal S256 .f32)
    (h : Cert.Pre_finite_inputs.fn (F := Ideal) a0 a1 a2 a3 a4 a5 a6 a7 a8 = fun _ => 1#1) :
    AllReal (S := SNC) a0 ∧ AllReal (S := SEK) a2 ∧ AllReal (S := SKC) a3 ∧ AllReal (S := SC) a4
      ∧ AllReal (S := SCC) a5 ∧ AllReal (S := SC) a6 := by
  -- the predicate at its one index is a conjunction of eight conjuncts, one per float argument
  have e := congrFun h ValueIdx.ix0
  dsimp only [fn, fn_part1, fn_part2, andi] at e
  simp only [IntOp.andi_eq_one] at e
  obtain ⟨⟨⟨⟨⟨⟨⟨h0, h2⟩, h3⟩, h4⟩, h5⟩, h6⟩, -⟩, -⟩ := e
  exact ⟨allReal_of_all _ _ _ a0 h0, allReal_of_all _ _ _ a2 h2, allReal_of_all _ _ _ a3 h3, allReal_of_all _ _ _ a4 h4,
    allReal_of_all _ _ _ a5 h5, allReal_of_all _ _ _ a6 h6⟩

end Cert.Finite

end
-- ==== Proof.Region0.lean ====
/-
  The edge kernel's region read as a value. Point t of its grid of 60 takes rows 5000 t … 5000 t + 4999 of the edge
  attributes, multiplies them with the whole weight matrix into a zero accumulator and adds the bias row; the 60 blocks
  tile the output, so the output array is the edge-linear term of the three arrays, index by index.
-/
import proofs.«412111_j7258494730825_3_alg».proof.Proof.Gen.KernelIdeal.Frame
import proofs.«412111_j7258494730825_3_alg».proof.Proof.Spec
import Idealize.ShloMosaic.Lib.Pipeline.Value
import Idealize.ShloMosaic.Lib.ValueLayout
import Idealize.ShloMosaic.PureOps.Ideal.Laws
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen

variable (V : (c : Dev nD) → (b : Ref sig .tc) → Buf (Elt Ideal) ((c : Thread nD τ).loc b))

/-! ## The block product at an index

The product contracts axis 1 of the left operand with axis 0 of the right one: at output index (p, q) and contraction
position k the left operand is read at (p, k) and the right one at (k, q). -/

private theorem lhs_mm_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
private theorem lhs_mm_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
private theorem rhs_mm_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
private theorem rhs_mm_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The product of a block of 5000 rows with the weight matrix into the zero accumulator, at row p and column q:
    the sum over the 64 contraction positions of the row's entry times the column's. -/
private theorem mm_apply (l : FVec Ideal S5000x64 .bf16) (r : FVec Ideal S64x256 .bf16) (p : Fin 5000) (q : Fin 256) :
    matmul dot_S5000x64_S64x256_S5000x256_1_0_0_1_n_n none l r (constant (F := Ideal) S5000x256 .f32 0x00000000#32) (ix2 p q)
      = ∑ k : Fin 64, l (ix2 p k) * r (ix2 k q) := by
  show FloatOps.matmul _ _ _ _ _ _ = _
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p q) ((ValueIdx.contrEquiv1 dot_S5000x64_S64x256_S5000x256_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x256_S5000x256_1_0_0_1_n_n.rhsIdx (ix2 p q) ((ValueIdx.contrEquiv1 dot_S5000x64_S64x256_S5000x256_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an index -/

/-- The body's value at row p and column q of its block: the two narrowings change nothing on the extended reals,
    the product into the zero accumulator is its sum, the cast of the bias row to its own shape is the row, and the
    broadcast down the 5000 rows reads the row at column q. -/
private theorem pay_apply (x0 : Vec Ideal S5000x64 .f32) (x1 : Vec Ideal S64x256 .f32) (x2 : Vec Ideal S1x256 .f32) (p : Fin 5000) (q : Fin 256) :
    k0_pay1 x0 x1 x2 (ix2 p q) = (∑ k : Fin 64, x0 (ix2 p k) * x1 (ix2 k q)) + x2 (ix2 (0 : Fin 1) q) := by
  unfold k0_pay1
  rw [addf_apply, mm_apply, broadcastTo_1b_ab_apply, shapeCast_self]
  rfl

/-- The body's value at (p, q) is the edge-linear term at an index i of the whole arrays, as soon as row p of the
    attribute block is row i 0 of the attributes, the weight block is the weights at column i 1 = q, and the bias
    block is the bias row. -/
private theorem pay_eq_lin (x0 : Vec Ideal S5000x64 .f32) (x1 : Vec Ideal S64x256 .f32) (x2 : Vec Ideal S1x256 .f32)
    (ea : Cert.Spec.SEK.Idx → EReal) (we : Cert.Spec.SKC.Idx → EReal) (be : Cert.Spec.S1C.Idx → EReal)
    (p : Fin 5000) (q : Fin 256) (i : Cert.Spec.SEC.Idx)
    (h0 : ∀ k : Fin 64, x0 (ix2 p k) = ea (ix2 (i 0) k))
    (h1 : ∀ k : Fin 64, x1 (ix2 k q) = we (ix2 k (i 1)))
    (h2 : x2 (ix2 (0 : Fin 1) q) = be (ix2 0 (i 1))) :
    k0_pay1 x0 x1 x2 (ix2 p q) = Cert.Spec.lin ea we be i := by
  rw [pay_apply, h2]
  show _ = (∑ k : Fin 64, ea (ix2 (i 0) k) * we (ix2 k (i 1))) + be (ix2 0 (i 1))
  exact congrArg (· + be (ix2 0 (i 1))) (Finset.sum_congr rfl fun k _ => by rw [h0 k, h1 k])

/-! ## The blocks -/

private theorem hz : (![0, 0] : Fin 2 → Nat) = fun _ => 0 := funext fun a => by fin_cases a <;> rfl

/-- The printed index maps over the grid of 60: the attribute block and the output block of point t are block t down
    the rows, the weights and the bias row are always block 0. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row y 0 of the attribute block at point t is row 5000 t + y 0 of the attributes. -/
private theorem blk0_apply (c : Dev nD) (t : Fin cfg0.N) (y : S5000x64.Idx) (i : S300000x64.Idx)
    (h0 : (i 0).val = 5000 * t.val + (y 0).val) (h1 : (i 1).val = (y 1).val) :
    (iblk0 V c 0 t : Vec Ideal S5000x64 .f32) y = (V c main_arg2 : S300000x64.Idx → EReal) i := by
  obtain ⟨e0, e1, -⟩ := idx_facts t
  unfold iblk0
  rw [View.read_apply]
  show V c main_arg2 _ = V c main_arg2 _
  congr 1
  funext a
  apply Fin.ext
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The weight block at every point is the whole weight matrix. -/
private theorem blk1_apply (c : Dev nD) (t : Fin cfg0.N) (y : S64x256.Idx) (i : S64x256.Idx)
    (h0 : (i 0).val = (y 0).val) (h1 : (i 1).val = (y 1).val) :
    (iblk0 V c 1 t : Vec Ideal S64x256 .f32) y = (V c main_arg3 : S64x256.Idx → EReal) i := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 64 + 1 * (y 0).val = (i 0).val; omega
  | ⟨1, _⟩ => show win0_1.index t (1 : Fin 2) * 256 + 1 * (y 1).val = (i 1).val; omega

/-- The bias block at every point is the whole bias row. -/
private theorem blk2_apply (c : Dev nD) (t : Fin cfg0.N) (y : S1x256.Idx) (i : S1x256.Idx)
    (h0 : (i 0).val = (y 0).val) (h1 : (i 1).val = (y 1).val) :
    (iblk0 V c 2 t : Vec Ideal S1x256 .f32) y = (V c main_v4 : S1x256.Idx → EReal) i := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t (0 : Fin 2) * 1 + 1 * (y 0).val = (i 0).val; omega
  | ⟨1, _⟩ => show win0_2.index t (1 : Fin 2) * 256 + 1 * (y 1).val = (i 1).val; omega

/-! ## What a point writes back -/

/-- What point t writes back is block t of the edge-linear term of the arrays the region finds. -/
private theorem flushed_eq (c : Dev nD) (t : Fin cfg0.N) :
    (dat0 (F := Ideal) V c).flushed 3 t
      = ((cfg0.win 3).blk t).view.read (Elt Ideal) (Cert.Spec.lin (V c main_arg2) (V c main_arg3) (V c main_v4)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x256) hz, View.ld_unit_zero (S := S1x256) hz]
  obtain ⟨-, -, -, -, -, -, e0, e1⟩ := idx_facts t
  funext j
  rw [View.read_apply]
  have hj0 : (j 0).val < 5000 := (j 0).isLt
  have hj1 : (j 1).val < 256 := (j 1).isLt
  have hx : (cfg0.win 3).xinj (grid0.coords t) j = ix2 (⟨(j 0).val, hj0⟩ : Fin 5000) (⟨(j 1).val, hj1⟩ : Fin 256) := by
    funext a
    match a with
    | ⟨0, _⟩ => rfl
    | ⟨1, _⟩ => rfl
  refine (congrArg (k0_pay1 (iblk0 V c 0 t) (iblk0 V c 1 t) (iblk0 V c 2 t)) hx).trans ?_
  refine pay_eq_lin _ _ _ _ _ _ _ _ _ (fun k => ?_) (fun k => ?_) ?_
  · refine blk0_apply V c t _ _ ?_ rfl
    show win0_3.index t (0 : Fin 2) * 5000 + 1 * (j 0).val = 5000 * t.val + (j 0).val
    omega
  · refine blk1_apply V c t _ _ rfl ?_
    show win0_3.index t (1 : Fin 2) * 256 + 1 * (j 1).val = (j 1).val
    omega
  · refine blk2_apply V c t _ _ rfl ?_
    show win0_3.index t (1 : Fin 2) * 256 + 1 * (j 1).val = (j 1).val
    omega

/-! ## The blocks tile the output -/

/-- An index of the output is in point t's block exactly when each coordinate is in the block's range on its axis. -/
private theorem mem_blk (t : Fin cfg0.N) (i : S300000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v5).slice (win0_3.rect t)).set ↔ _
  rw [View.set_slice_whole, Rect.mem_set_unit]
  exact Iff.rfl

/-- Row r of the output lies in the block of point r / 5000, and every point writes its block back. -/
private theorem cover (i : S300000x256.Idx) :
    ∃ t : Fin cfg0.N, (cfg0.win 3).flush t = true ∧ i ∈ ((cfg0.win 3).blk t).view.set := by
  have hN : cfg0.N = 60 := N_0
  have hi0 : (i 0).val < 300000 := (i 0).isLt
  have hi1 : (i 1).val < 256 := (i 1).isLt
  have ht : (i 0).val / 5000 < cfg0.N := by rw [hN]; omega
  obtain ⟨-, -, -, -, -, -, e0, e1⟩ := idx_facts ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 256 ≤ (i 1).val ∧ (i 1).val < win0_3.index ⟨(i 0).val / 5000, ht⟩ (1 : Fin 2) * 256 + 256
    omega

/-- The edge kernel's output array after its region: the edge-linear term of the three arrays the region finds. -/
theorem final0 (c : Dev nD) :
    (dat0 (F := Ideal) V c).arrAt 3 cfg0.N
      = Cert.Spec.lin (V c main_arg2) (V c main_arg3) (V c main_v4) := by
  exact (dat0 (F := Ideal) V c).arrAt_eq_of_cover 3 (Cert.Spec.lin (V c main_arg2) (V c main_arg3) (V c main_v4))
    (fun t _ => flushed_eq V c t) cover

end Cert.KernelIdeal.Edge

end
-- ==== Proof.Region1.lean ====
/-
  The node kernel's region read as values. Point t of its grid of 10 takes rows 2000 t … 2000 t + 1999 of the node
  array and of the aggregate, forms 1 · x + agg, multiplies with the whole weight matrix into a zero accumulator and
  adds the bias row; it also writes the column sums of that block and of its square into row t of two [10, 1, 256]
  arrays. The blocks tile each output.
-/
import proofs.«412111_j7258494730825_3_alg».proof.Proof.Gen.KernelIdeal.Frame
import proofs.«412111_j7258494730825_3_alg».proof.Proof.Spec
import Idealize.ShloMosaic.Lib.Pipeline.Value
import Idealize.ShloMosaic.Lib.ValueLayout
import Idealize.ShloMosaic.PureOps.Ideal.Laws
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Node

open Cert.KernelIdeal Cert.KernelIdeal.Gen

variable (V : (c : Dev nD) → (b : Ref sig .tc) → Buf (Elt Ideal) ((c : Thread nD τ).loc b))

/-! ## The matrix product of a block of rows with the whole weight matrix, read at an entry -/

/-- The product contracts axis 1 of the left factor against axis 0 of the right one: at output entry i and contraction
    position q the left factor is read at (i 0, q) and the right one at (q, i 1). The four coordinates, one by one. -/
private theorem lhs_node_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lhs_node_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem rhs_node_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem rhs_node_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (r, j) of the product into a zero accumulator is the sum over k of row r of the left factor against
    column j of the right one. -/
private theorem node_matmul_apply (l : FVec Ideal S2000x256 .bf16) (w : FVec Ideal S256x256 .bf16) (r : Fin 2000) (j : Fin 256) :
    matmul dot_S2000x256_S256x256_S2000x256_1_0_0_1_n_n none l w (constant (F := Ideal) S2000x256 .f32 0x00000000#32) (ix2 r j)
      = ∑ k : Fin 256, l (ix2 r k) * w (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs_node_0 _ _
    | ⟨1, _⟩ => exact (lhs_node_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (rhs_node_0 _ _).trans hk
    | ⟨1, _⟩ => exact rhs_node_1 _ _)
  rw [el, er]

/-- The body's node map at entry (r, j) of its block: row r of 1 · x + agg against column j of the weights,
    plus the bias at j. -/
private theorem pay1_apply (x0 x1 : Vec Ideal S2000x256 .f32) (x2 : Vec Ideal S256x256 .f32) (x3 : Vec Ideal S1x256 .f32)
    (r : Fin 2000) (j : Fin 256) :
    k1_pay1 (F := Ideal) x0 x1 x2 x3 (ix2 r j)
      = (∑ k : Fin 256, (Cert.Spec.one32 * x0 (ix2 r k) + x1 (ix2 r k)) * x2 (ix2 k j)) + x3 (ix2 0 j) := by
  unfold k1_pay1
  rw [addf_apply, node_matmul_apply, broadcastTo_1b_ab_apply, shapeCast_self, shapeCast_self]
  refine congrArg (· + x3 (ix2 0 j)) (Finset.sum_congr rfl fun k _ => ?_)
  rw [truncf_apply, truncf_apply, addf_apply, mulf_apply, broadcast_apply]
  rfl

/-- A column sum over the 2000 rows of a block, read at column j. -/
private theorem colsum_apply (src : FVec Ideal S2000x256 .f32) (hφ : FKind.Formats .f32)
    (hacc : (0x00000000#32 : BitVec 32) = FKind.add.neutral .f32 hφ) (j : Fin 256) :
    multiReduction (F := Ideal) .add [0] S256 src 0x00000000#32 reduces_S2000x256_S256 hφ hacc (ix1 j)
      = ∑ r : Fin 2000, src (ix2 r j) := by
  refine (Ideal.multiReduction_add_single src 0x00000000#32 reduces_S2000x256_S256 hφ hacc (ix1 j)).trans ?_
  show ∑ r : Fin 2000, src (reduces_S2000x256_S256.lift (ix1 j) r) = _
  refine Finset.sum_congr rfl fun r _ => congrArg src (funext fun a => Fin.ext ?_)
  match a with
  | ⟨0, _⟩ => rfl
  | ⟨1, _⟩ => rfl

/-- The body's second result at column j: the sum over the block's rows of its node map. -/
private theorem pay2_apply (x0 x1 : Vec Ideal S2000x256 .f32) (x2 : Vec Ideal S256x256 .f32) (x3 : Vec Ideal S1x256 .f32)
    (u v : Fin 1) (j : Fin 256) :
    k1_pay2 (F := Ideal) x0 x1 x2 x3 (ix3 u v j) = ∑ r : Fin 2000, k1_pay1 (F := Ideal) x0 x1 x2 x3 (ix2 r j) := by
  unfold k1_pay2
  rw [shapeCast_ab_1ab_apply, shapeCast_a_1a_apply]
  exact colsum_apply _ _ _ j

/-- The body's third result at column j: the sum over the block's rows of the squares of its node map. -/
private theorem pay3_apply (x0 x1 : Vec Ideal S2000x256 .f32) (x2 : Vec Ideal S256x256 .f32) (x3 : Vec Ideal S1x256 .f32)
    (u v : Fin 1) (j : Fin 256) :
    k1_pay3 (F := Ideal) x0 x1 x2 x3 (ix3 u v j)
      = ∑ r : Fin 2000, k1_pay1 (F := Ideal) x0 x1 x2 x3 (ix2 r j) * k1_pay1 (F := Ideal) x0 x1 x2 x3 (ix2 r j) := by
  unfold k1_pay3
  rw [shapeCast_ab_1ab_apply, shapeCast_a_1a_apply]
  exact colsum_apply _ _ _ j

/-! ## The blocks of a point, read off the arrays -/

/-- The zero offsets of a whole block, at rank 2 and at rank 3. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- The block index of every window at every point, decided over the grid: the row blocks move with the point,
    the weight matrix and the bias row stay, the two partial-sum arrays take row t. -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- The point as a tile number. -/
private abbrev tile (t : Fin cfg1.N) : Fin 10 := t.cast N_1

/-- Entry (r, k) of the x block at point t is entry (2000 t + r, k) of x. -/
private theorem blk0_apply (c : Dev nD) (t : Fin cfg1.N) (x : S2000x256.Idx) (k : S20000x256.Idx)
    (hk0 : (k 0).val = 2000 * t.val + (x 0).val) (hk1 : (k 1).val = (x 1).val) :
    (iblk1 V c 0 t : Vec Ideal S2000x256 .f32) x = (V c main_arg0 : S20000x256.Idx → EReal) k := by
  obtain ⟨⟨e0, e1⟩, -⟩ := idx_facts t
  unfold iblk1
  rw [View.read_apply]
  show V c main_arg0 _ = V c main_arg0 _
  refine congrArg (V c main_arg0 : S20000x256.Idx → EReal) (funext fun a => Fin.ext ?_)
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- The same for the aggregate. -/
private theorem blk1_apply (c : Dev nD) (t : Fin cfg1.N) (x : S2000x256.Idx) (k : S20000x256.Idx)
    (hk0 : (k 0).val = 2000 * t.val + (x 0).val) (hk1 : (k 1).val = (x 1).val) :
    (iblk1 V c 1 t : Vec Ideal S2000x256 .f32) x = (V c main_v17 : S20000x256.Idx → EReal) k := by
  obtain ⟨-, ⟨e0, e1⟩, -⟩ := idx_facts t
  unfold iblk1
  rw [View.read_apply]
  show V c main_v17 _ = V c main_v17 _
  refine congrArg (V c main_v17 : S20000x256.Idx → EReal) (funext fun a => Fin.ext ?_)
  match a with
  | ⟨0, _⟩ => show win1_1.index t 0 * 2000 + 1 * (x 0).val = (k 0).val; rw [e0, hk0]; omega
  | ⟨1, _⟩ => show win1_1.index t 1 * 256 + 1 * (x 1).val = (k 1).val; rw [e1, hk1]; omega

/-- The weight block at every point is the whole weight matrix. -/
private theorem blk2_apply (c : Dev nD) (t : Fin cfg1.N) (x : S256x256.Idx) :
    (iblk1 V c 2 t : Vec Ideal S256x256 .f32) x = (V c main_arg5 : S256x256.Idx → EReal) x := by
  obtain ⟨-, -, ⟨e0, e1⟩, -⟩ := idx_facts t
  unfold iblk1
  rw [View.read_apply]
  show V c main_arg5 _ = V c main_arg5 _
  refine congrArg (V c main_arg5 : S256x256.Idx → EReal) (funext fun a => Fin.ext ?_)
  match a with
  | ⟨0, _⟩ => show win1_2.index t 0 * 256 + 1 * (x 0).val = (x 0).val; rw [e0]; omega
  | ⟨1, _⟩ => show win1_2.index t 1 * 256 + 1 * (x 1).val = (x 1).val; rw [e1]; omega

/-- The bias block at every point is the whole bias row. -/
private theorem blk3_apply (c : Dev nD) (t : Fin cfg1.N) (x : S1x256.Idx) :
    (iblk1 V c 3 t : Vec Ideal S1x256 .f32) x = (V c main_v18 : S1x256.Idx → EReal) x := by
  obtain ⟨-, -, -, ⟨e0, e1⟩, -⟩ := idx_facts t
  unfold iblk1
  rw [View.read_apply]
  show V c main_v18 _ = V c main_v18 _
  refine congrArg (V c main_v18 : S1x256.Idx → EReal) (funext fun a => Fin.ext ?_)
  match a with
  | ⟨0, _⟩ => show win1_3.index t 0 * 1 + 1 * (x 0).val = (x 0).val; rw [e0]; omega
  | ⟨1, _⟩ => show win1_3.index t 1 * 256 + 1 * (x 1).val = (x 1).val; rw [e1]; omega

/-- The node map of the arrays the region finds. -/
private abbrev nodeOf (c : Dev nD) : S20000x256.Idx → EReal :=
  Cert.Spec.node (V c main_arg0) (V c main_v17) (V c main_arg5) (V c main_v18)

/-- The body's node map of the blocks at point t, at (r, j), is the node map of the arrays at row r of tile t. -/
private theorem node_at (c : Dev nD) (t : Fin cfg1.N) (r : Fin 2000) (j : Fin 256) :
    k1_pay1 (F := Ideal) (iblk1 V c 0 t) (iblk1 V c 1 t) (iblk1 V c 2 t) (iblk1 V c 3 t) (ix2 r j)
      = nodeOf V c (ix2 (Cert.Spec.tileRow (tile t) r) j) := by
  refine (pay1_apply (iblk1 V c 0 t) (iblk1 V c 1 t) (iblk1 V c 2 t) (iblk1 V c 3 t) r j).trans ?_
  show _ = (∑ k : Fin 256, (Cert.Spec.one32 * (V c main_arg0 : S20000x256.Idx → EReal) (ix2 (Cert.Spec.tileRow (tile t) r) k)
      + (V c main_v17 : S20000x256.Idx → EReal) (ix2 (Cert.Spec.tileRow (tile t) r) k)) * (V c main_arg5 : S256x256.Idx → EReal) (ix2 k j))
      + (V c main_v18 : S1x256.Idx → EReal) (ix2 0 j)
  refine congrArg₂ (· + ·) (Finset.sum_congr rfl fun k _ => ?_) (blk3_apply V c t (ix2 0 j))
  rw [blk0_apply V c t (ix2 r k) (ix2 (Cert.Spec.tileRow (tile t) r) k) rfl rfl,
    blk1_apply V c t (ix2 r k) (ix2 (Cert.Spec.tileRow (tile t) r) k) rfl rfl, blk2_apply V c t (ix2 k j)]

/-! ## What a point writes back, and the arrays after the region -/

/-- Entry (r, j) of the output block at point t sits at (2000 t + r, j) of the array. -/
private theorem emb4 (t : Fin cfg1.N) (r : Fin 2000) (j : Fin 256) :
    ((cfg1.win 4).blk t).view.emb (ix2 r j) = (ix2 (Cert.Spec.tileRow (tile t) r) j : S20000x256.Idx) := by
  obtain ⟨-, -, -, -, ⟨e0, e1⟩, -⟩ := idx_facts t
  refine funext fun a => Fin.ext ?_
  match a with
  | ⟨0, _⟩ => show win1_4.index t 0 * 2000 + 1 * r.val = 2000 * t.val + r.val; rw [e0]; omega
  | ⟨1, _⟩ => show win1_4.index t 1 * 256 + 1 * j.val = j.val; rw [e1]; omega

/-- The body's node map of the blocks at point t is, entry by entry, the node map of the arrays read through the
    output block of point t. -/
private theorem flushed4_at (c : Dev nD) (t : Fin cfg1.N) (y : S2000x256.Idx) :
    k1_pay1 (F := Ideal) (iblk1 V c 0 t) (iblk1 V c 1 t) (iblk1 V c 2 t) (iblk1 V c 3 t) y
      = nodeOf V c (((cfg1.win 4).blk t).view.emb y) := by
  obtain ⟨r, j, rfl⟩ : ∃ (r : Fin 2000) (j : Fin 256), y = ix2 r j := ⟨y 0, y 1, eq_ix2 y⟩
  rw [emb4]
  exact node_at V c t r j

/-- What point t writes back through window 4 is block t of the node map of the arrays. -/
private theorem flushed4_eq (c : Dev nD) (t : Fin cfg1.N) :
    (dat1 (F := Ideal) V c).flushed 4 t = ((cfg1.win 4).blk t).view.read (Elt Ideal) (nodeOf V c) := by
  show (cfg1.win 4).cut (grid1.coords t) ((dat1 (F := Ideal) V c).after 4 t) = _
  rw [after1_4]
  unfold out1_4
  rw [View.canon_unit_zero hz2]
  simp only [View.ld_unit_zero (S := S2000x256) hz2, View.ld_unit_zero (S := S256x256) hz2, View.ld_unit_zero (S := S1x256) hz2]
  funext y
  exact flushed4_at V c t y

/-- An index of the node array is in the block of point t iff each coordinate is in the block's range. -/
private theorem mem_blk4 (t : Fin cfg1.N) (i : S20000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v19_0).slice (win1_4.rect t)).set ↔ _
  rw [View.set_slice_whole, Rect.mem_set_unit]
  exact Iff.rfl

/-- Row n of the node array lies in the block of point n / 2000. -/
private theorem cover4 (i : S20000x256.Idx) : ∃ t : Fin cfg1.N, (cfg1.win 4).flush t = true ∧ i ∈ ((cfg1.win 4).blk t).view.set := by
  have h0 : (i 0).val < 20000 := (i 0).isLt
  have h1 : (i 1).val < 256 := (i 1).isLt
  obtain ⟨t, ht⟩ : ∃ t : Fin cfg1.N, t.val = (i 0).val / 2000 := ⟨⟨(i 0).val / 2000, by show _ < grid1.N; rw [N_1]; omega⟩, rfl⟩
  obtain ⟨-, -, -, -, ⟨e0, e1⟩, -⟩ := idx_facts t
  refine ⟨t, flush1_4 t, ?_⟩
  rw [mem_blk4]
  intro a
  match a with
  | ⟨0, _⟩ => show win1_4.index t 0 * 2000 ≤ (i 0).val ∧ (i 0).val < win1_4.index t 0 * 2000 + 2000; rw [e0, ht]; omega
  | ⟨1, _⟩ => show win1_4.index t 1 * 256 ≤ (i 1).val ∧ (i 1).val < win1_4.index t 1 * 256 + 256; rw [e1]; omega

/-- Entry (u, v, j) of the block of window 5 at point t sits at (t, 0, j) of its array. -/
private theorem emb5 (t : Fin cfg1.N) (u v : Fin 1) (j : Fin 256) :
    ((cfg1.win 5).blk t).view.emb (ix3 u v j) = (ix3 (tile t) (0 : Fin 1) j : S10x1x256.Idx) := by
  obtain ⟨-, -, -, -, -, ⟨e0, e1, e2⟩, -⟩ := idx_facts t
  refine funext fun a => Fin.ext ?_
  match a with
  | ⟨0, _⟩ => show win1_5.index t 0 * 1 + 1 * u.val = t.val; rw [e0]; omega
  | ⟨1, _⟩ => show win1_5.index t 1 * 1 + 1 * v.val = 0; rw [e1]; omega
  | ⟨2, _⟩ => show win1_5.index t 2 * 256 + 1 * j.val = j.val; rw [e2]; omega

/-- The body's column sums over the blocks at point t are, entry by entry, the per-tile sums of the node map read
    through the block of point t: tile t, column j. -/
private theorem flushed5_at (c : Dev nD) (t : Fin cfg1.N) (y : S1x1x256.Idx) :
    k1_pay2 (F := Ideal) (iblk1 V c 0 t) (iblk1 V c 1 t) (iblk1 V c 2 t) (iblk1 V c 3 t) y
      = Cert.Spec.tileSum (nodeOf V c) (((cfg1.win 5).blk t).view.emb y) := by
  obtain ⟨u, v, j, rfl⟩ : ∃ (u v : Fin 1) (j : Fin 256), y = ix3 u v j := ⟨y 0, y 1, y 2, eq_ix3 y⟩
  rw [emb5]
  refine (pay2_apply (iblk1 V c 0 t) (iblk1 V c 1 t) (iblk1 V c 2 t) (iblk1 V c 3 t) u v j).trans ?_
  show _ = ∑ r : Fin 2000, nodeOf V c (ix2 (Cert.Spec.tileRow (tile t) r) j)
  exact Finset.sum_congr rfl fun r _ => node_at V c t r j

/-- What point t writes back through window 5 is block t of the column sums of the node map, tile by tile. -/
private theorem flushed5_eq (c : Dev nD) (t : Fin cfg1.N) :
    (dat1 (F := Ideal) V c).flushed 5 t = ((cfg1.win 5).blk t).view.read (Elt Ideal) (Cert.Spec.tileSum (nodeOf V c)) := by
  show (cfg1.win 5).cut (grid1.coords t) ((dat1 (F := Ideal) V c).after 5 t) = _
  rw [after1_5]
  unfold out1_5
  rw [View.canon_unit_zero hz3]
  simp only [View.ld_unit_zero (S := S2000x256) hz2, View.ld_unit_zero (S := S256x256) hz2, View.ld_unit_zero (S := S1x256) hz2]
  funext y
  exact flushed5_at V c t y

/-- An index of the array of window 5 is in the block of point t iff each coordinate is in the block's range. -/
private theorem mem_blk5 (t : Fin cfg1.N) (i : S10x1x256.Idx) :
    i ∈ ((cfg1.win 5).blk t).view.set ↔ ∀ a : Fin 3, win1_5.index t a * S1x1x256.size a ≤ (i a).val ∧ (i a).val < win1_5.index t a * S1x1x256.size a + S1x1x256.size a := by
  show i ∈ ((View.whole main_v19_1).slice (win1_5.rect t)).set ↔ _
  rw [View.set_slice_whole, Rect.mem_set_unit]
  exact Iff.rfl

/-- Row n of the array of window 5 is the block of point n. -/
private theorem cover5 (i : S10x1x256.Idx) : ∃ t : Fin cfg1.N, (cfg1.win 5).flush t = true ∧ i ∈ ((cfg1.win 5).blk t).view.set := by
  have h0 : (i 0).val < 10 := (i 0).isLt
  have h1 : (i 1).val < 1 := (i 1).isLt
  have h2 : (i 2).val < 256 := (i 2).isLt
  obtain ⟨t, ht⟩ : ∃ t : Fin cfg1.N, t.val = (i 0).val := ⟨⟨(i 0).val, by show _ < grid1.N; rw [N_1]; omega⟩, rfl⟩
  obtain ⟨-, -, -, -, -, ⟨e0, e1, e2⟩, -⟩ := idx_facts t
  refine ⟨t, flush1_5 t, ?_⟩
  rw [mem_blk5]
  intro a
  match a with
  | ⟨0, _⟩ => show win1_5.index t 0 * 1 ≤ (i 0).val ∧ (i 0).val < win1_5.index t 0 * 1 + 1; rw [e0, ht]; omega
  | ⟨1, _⟩ => show win1_5.index t 1 * 1 ≤ (i 1).val ∧ (i 1).val < win1_5.index t 1 * 1 + 1; rw [e1]; omega
  | ⟨2, _⟩ => show win1_5.index t 2 * 256 ≤ (i 2).val ∧ (i 2).val < win1_5.index t 2 * 256 + 256; rw [e2]; omega

/-- Entry (u, v, j) of the block of window 6 at point t sits at (t, 0, j) of its array. -/
private theorem emb6 (t : Fin cfg1.N) (u v : Fin 1) (j : Fin 256) :
    ((cfg1.win 6).blk t).view.emb (ix3 u v j) = (ix3 (tile t) (0 : Fin 1) j : S10x1x256.Idx) := by
  obtain ⟨-, -, -, -, -, -, ⟨e0, e1, e2⟩⟩ := idx_facts t
  refine funext fun a => Fin.ext ?_
  match a with
  | ⟨0, _⟩ => show win1_6.index t 0 * 1 + 1 * u.val = t.val; rw [e0]; omega
  | ⟨1, _⟩ => show win1_6.index t 1 * 1 + 1 * v.val = 0; rw [e1]; omega
  | ⟨2, _⟩ => show win1_6.index t 2 * 256 + 1 * j.val = j.val; rw [e2]; omega

/-- The body's column sums of squares over the blocks at point t are, entry by entry, the per-tile sums of squares of
    the node map read through the block of point t: tile t, column j. -/
private theorem flushed6_at (c : Dev nD) (t : Fin cfg1.N) (y : S1x1x256.Idx) :
    k1_pay3 (F := Ideal) (iblk1 V c 0 t) (iblk1 V c 1 t) (iblk1 V c 2 t) (iblk1 V c 3 t) y
      = Cert.Spec.tileSq (nodeOf V c) (((cfg1.win 6).blk t).view.emb y) := by
  obtain ⟨u, v, j, rfl⟩ : ∃ (u v : Fin 1) (j : Fin 256), y = ix3 u v j := ⟨y 0, y 1, y 2, eq_ix3 y⟩
  rw [emb6]
  refine (pay3_apply (iblk1 V c 0 t) (iblk1 V c 1 t) (iblk1 V c 2 t) (iblk1 V c 3 t) u v j).trans ?_
  show _ = ∑ r : Fin 2000, nodeOf V c (ix2 (Cert.Spec.tileRow (tile t) r) j) * nodeOf V c (ix2 (Cert.Spec.tileRow (tile t) r) j)
  exact Finset.sum_congr rfl fun r _ => by rw [node_at V c t r j]

/-- What point t writes back through window 6 is block t of the column sums of squares of the node map, tile by tile. -/
private theorem flushed6_eq (c : Dev nD) (t : Fin cfg1.N) :
    (dat1 (F := Ideal) V c).flushed 6 t = ((cfg1.win 6).blk t).view.read (Elt Ideal) (Cert.Spec.tileSq (nodeOf V c)) := by
  show (cfg1.win 6).cut (grid1.coords t) ((dat1 (F := Ideal) V c).after 6 t) = _
  rw [after1_6]
  unfold out1_6
  rw [View.canon_unit_zero hz3]
  simp only [View.ld_unit_zero (S := S2000x256) hz2, View.ld_unit_zero (S := S256x256) hz2, View.ld_unit_zero (S := S1x256) hz2]
  funext y
  exact flushed6_at V c t y

/-- An index of the array of window 6 is in the block of point t iff each coordinate is in the block's range. -/
private theorem mem_blk6 (t : Fin cfg1.N) (i : S10x1x256.Idx) :
    i ∈ ((cfg1.win 6).blk t).view.set ↔ ∀ a : Fin 3, win1_6.index t a * S1x1x256.size a ≤ (i a).val ∧ (i a).val < win1_6.index t a * S1x1x256.size a + S1x1x256.size a := by
  show i ∈ ((View.whole main_v19_2).slice (win1_6.rect t)).set ↔ _
  rw [View.set_slice_whole, Rect.mem_set_unit]
  exact Iff.rfl

/-- Row n of the array of window 6 is the block of point n. -/
private theorem cover6 (i : S10x1x256.Idx) : ∃ t : Fin cfg1.N, (cfg1.win 6).flush t = true ∧ i ∈ ((cfg1.win 6).blk t).view.set := by
  have h0 : (i 0).val < 10 := (i 0).isLt
  have h1 : (i 1).val < 1 := (i 1).isLt
  have h2 : (i 2).val < 256 := (i 2).isLt
  obtain ⟨t, ht⟩ : ∃ t : Fin cfg1.N, t.val = (i 0).val := ⟨⟨(i 0).val, by show _ < grid1.N; rw [N_1]; omega⟩, rfl⟩
  obtain ⟨-, -, -, -, -, -, ⟨e0, e1, e2⟩⟩ := idx_facts t
  refine ⟨t, flush1_6 t, ?_⟩
  rw [mem_blk6]
  intro a
  match a with
  | ⟨0, _⟩ => show win1_6.index t 0 * 1 ≤ (i 0).val ∧ (i 0).val < win1_6.index t 0 * 1 + 1; rw [e0, ht]; omega
  | ⟨1, _⟩ => show win1_6.index t 1 * 1 ≤ (i 1).val ∧ (i 1).val < win1_6.index t 1 * 1 + 1; rw [e1]; omega
  | ⟨2, _⟩ => show win1_6.index t 2 * 256 ≤ (i 2).val ∧ (i 2).val < win1_6.index t 2 * 256 + 256; rw [e2]; omega

/-- The node map's array after the region. -/
theorem final1_4 (c : Dev nD) :
    (dat1 (F := Ideal) V c).arrAt 4 cfg1.N
      = Cert.Spec.node (V c main_arg0) (V c main_v17) (V c main_arg5) (V c main_v18) :=
  (dat1 (F := Ideal) V c).arrAt_eq_of_cover 4 (nodeOf V c) (fun t _ => flushed4_eq V c t) cover4

/-- The per-tile column sums of the node map. -/
theorem final1_5 (c : Dev nD) :
    (dat1 (F := Ideal) V c).arrAt 5 cfg1.N
      = Cert.Spec.tileSum (Cert.Spec.node (V c main_arg0) (V c main_v17) (V c main_arg5) (V c main_v18)) :=
  (dat1 (F := Ideal) V c).arrAt_eq_of_cover 5 (Cert.Spec.tileSum (nodeOf V c)) (fun t _ => flushed5_eq V c t) cover5

/-- The per-tile column sums of its squares. -/
theorem final1_6 (c : Dev nD) :
    (dat1 (F := Ideal) V c).arrAt 6 cfg1.N
      = Cert.Spec.tileSq (Cert.Spec.node (V c main_arg0) (V c main_v17) (V c main_arg5) (V c main_v18)) :=
  (dat1 (F := Ideal) V c).arrAt_eq_of_cover 6 (Cert.Spec.tileSq (nodeOf V c)) (fun t _ => flushed6_eq V c t) cover6

end Cert.KernelIdeal.Node

end
-- ==== Proof.Region2.lean ====
/-
  The normalisation kernel's region read as a value. Point t of its grid of 10 takes rows 2000 t … 2000 t + 1999 of the
  node map and the four rows mean, variance, scale and shift, and writes max ((o − mean) · rsqrt (var + ε) · γ + β) 0;
  the blocks tile the output.
-/
import proofs.«412111_j7258494730825_3_alg».proof.Proof.Gen.KernelIdeal.Frame
import proofs.«412111_j7258494730825_3_alg».proof.Proof.Spec
import Idealize.ShloMosaic.Lib.Pipeline.Value
import Idealize.ShloMosaic.Lib.ValueLayout
import Idealize.ShloMosaic.PureOps.Ideal.Laws
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Norm

open Cert.KernelIdeal Cert.KernelIdeal.Gen

variable (V : (c : Dev nD) → (b : Ref sig .tc) → Buf (Elt Ideal) ((c : Thread nD τ).loc b))

/-- The zero offsets of a whole-block access, as the constant function. -/
private theorem zero_offsets : (![0, 0] : Fin 2 → Nat) = fun _ => 0 := funext fun a => by fin_cases a <;> rfl

/-- The body's arithmetic at row p and column q of its block: the block's entry less the mean of the column, times the
    reciprocal square root of the column's variance plus epsilon, times the scale, plus the shift, clipped below at zero. -/
private theorem norm_at (x0 : Vec Ideal S2000x256 .f32) (va me ga be : Vec Ideal S1x256 .f32) (p : Fin 2000) (q : Fin 256) :
    (k2_pay1 (F := Ideal) x0 va me ga be) (ix2 p q)
      = max ((x0 (ix2 p q) - me (ix2 0 q)) * Ideal.rsqrt (va (ix2 0 q) + Cert.Spec.eps32) * ga (ix2 0 q) + be (ix2 0 q)) Cert.Spec.zero32 := by
  unfold k2_pay1
  simp only [shapeCast_self, maximumf_apply, addf_apply, mulf_apply, subf_apply, broadcast_apply, broadcastTo_1b_ab_apply]
  rfl

/-- The same at an index j of the block, against the normalisation of an array o at an index k of the same column, when the
    block's entry at j is o at k. -/
private theorem norm_at_row (x0 : Vec Ideal S2000x256 .f32) (va me ga be : Vec Ideal S1x256 .f32)
    (o : Cert.Spec.SNC.Idx → EReal) (j : S2000x256.Idx) (k : S20000x256.Idx)
    (h0 : x0 j = o k) (hk1 : (k 1).val = (j 1).val) :
    (k2_pay1 (F := Ideal) x0 va me ga be) j = Cert.Spec.bn o me va ga be k := by
  obtain ⟨p, q, rfl⟩ : ∃ (p : Fin 2000) (q : Fin 256), j = ix2 p q := ⟨j 0, j 1, eq_ix2 j⟩
  obtain ⟨r, s, rfl⟩ : ∃ (r : Fin 20000) (s : Fin 256), k = ix2 r s := ⟨k 0, k 1, eq_ix2 k⟩
  obtain rfl : s = q := Fin.ext hk1
  rw [norm_at, h0]
  rfl

/-- The block indices over the grid: the node map's window and the output's window sit at block t of the rows, the four
    row windows at block zero. -/
private theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The mean row's block at every point is the whole row. -/
private theorem mean_row_whole (c : Dev nD) (t : Fin cfg2.N) :
    (iblk2 V c 1 t : Vec Ideal S1x256 .f32) = (V c main_v23 : S1x256.Idx → EReal) := by
  obtain ⟨-, -, e0, e1, -⟩ := block_indices t
  funext y
  show V c main_v23 (((cfg2.win 1).blk t).view.emb y) = V c main_v23 y
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 256 + 1 * (y 1).val = (y 1).val; rw [e1]; omega

/-- The variance row's block at every point is the whole row. -/
private theorem var_row_whole (c : Dev nD) (t : Fin cfg2.N) :
    (iblk2 V c 2 t : Vec Ideal S1x256 .f32) = (V c main_v29 : S1x256.Idx → EReal) := by
  obtain ⟨-, -, -, -, e0, e1, -⟩ := block_indices t
  funext y
  show V c main_v29 (((cfg2.win 2).blk t).view.emb y) = V c main_v29 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The scale row's block at every point is the whole row. -/
private theorem scale_row_whole (c : Dev nD) (t : Fin cfg2.N) :
    (iblk2 V c 3 t : Vec Ideal S1x256 .f32) = (V c main_v30 : S1x256.Idx → EReal) := by
  obtain ⟨-, -, -, -, -, -, e0, e1, -⟩ := block_indices t
  funext y
  show V c main_v30 (((cfg2.win 3).blk t).view.emb y) = V c main_v30 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-- The shift row's block at every point is the whole row. -/
private theorem shift_row_whole (c : Dev nD) (t : Fin cfg2.N) :
    (iblk2 V c 4 t : Vec Ideal S1x256 .f32) = (V c main_v31 : S1x256.Idx → EReal) := by
  obtain ⟨-, -, -, -, -, -, -, -, e0, e1, -⟩ := block_indices t
  funext y
  show V c main_v31 (((cfg2.win 4).blk t).view.emb y) = V c main_v31 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- What point t writes back is block t of the normalisation of the arrays the region finds. -/
private theorem point_writes_norm (c : Dev nD) (t : Fin cfg2.N) :
    (dat2 (F := Ideal) V c).flushed 5 t
      = ((cfg2.win 5).blk t).view.read (Elt Ideal)
          (Cert.Spec.bn (V c main_v19_0) (V c main_v23) (V c main_v29) (V c main_v30) (V c main_v31)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S1x256) zero_offsets]
  rw [mean_row_whole, var_row_whole, scale_row_whole, shift_row_whole]
  obtain ⟨e0, e1, -, -, -, -, -, -, -, -, e10, e11⟩ := block_indices t
  funext j
  show (k2_pay1 (F := Ideal) (iblk2 V c 0 t) (V c main_v29) (V c main_v23) (V c main_v30) (V c main_v31)) j
      = Cert.Spec.bn (V c main_v19_0) (V c main_v23) (V c main_v29) (V c main_v30) (V c main_v31) (((cfg2.win 5).blk t).view.emb j)
  refine norm_at_row _ _ _ _ _ _ j _ ?_ ?_
  · show V c main_v19_0 (((cfg2.win 0).blk t).view.emb j) = V c main_v19_0 (((cfg2.win 5).blk t).view.emb j)
    refine congrArg (V c main_v19_0) (funext fun a => Fin.ext ?_)
    match a with
    | ⟨0, _⟩ => show win2_0.index t (0 : Fin 2) * 2000 + 1 * (j 0).val = win2_5.index t (0 : Fin 2) * 2000 + 1 * (j 0).val; rw [e0, e10]
    | ⟨1, _⟩ => show win2_0.index t (1 : Fin 2) * 256 + 1 * (j 1).val = win2_5.index t (1 : Fin 2) * 256 + 1 * (j 1).val; rw [e1, e11]
  · show win2_5.index t (1 : Fin 2) * 256 + 1 * (j 1).val = (j 1).val
    rw [e11]; omega

/-- An index of the array is in point t's block iff each coordinate is in the block's range on its axis. -/
private theorem mem_rows (t : Fin cfg2.N) (i : S20000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v32).slice (win2_5.rect t)).set ↔ _
  rw [View.set_slice_whole, Rect.mem_set_unit]
  exact Iff.rfl

/-- Row r of the array lies in the block of the point r / 2000: the ten blocks tile the rows. -/
private theorem rows_tiled (i : S20000x256.Idx) :
    ∃ t : Fin cfg2.N, (cfg2.win 5).flush t = true ∧ i ∈ ((cfg2.win 5).blk t).view.set := by
  have hi0 : (i 0).val < 20000 := idx2_lt0 i
  have hi1 : (i 1).val < 256 := idx2_lt1 i
  have hN : cfg2.N = 10 := N_2
  have ht : (i 0).val / 2000 < cfg2.N := by rw [hN]; omega
  obtain ⟨-, -, -, -, -, -, -, -, -, -, e0, e1⟩ := block_indices ⟨(i 0).val / 2000, ht⟩
  refine ⟨⟨(i 0).val / 2000, ht⟩, flush2_5 _, ?_⟩
  rw [mem_rows]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]
    omega

/-- The result array after the region. -/
theorem final2 (c : Dev nD) :
    (dat2 (F := Ideal) V c).arrAt 5 cfg2.N
      = Cert.Spec.bn (V c main_v19_0) (V c main_v23) (V c main_v29) (V c main_v30) (V c main_v31) :=
  (dat2 (F := Ideal) V c).arrAt_eq_of_cover 5
    (Cert.Spec.bn (V c main_v19_0) (V c main_v23) (V c main_v29) (V c main_v30) (V c main_v31))
    (fun t _ => point_writes_norm V c t) rows_tiled

end Cert.KernelIdeal.Norm

end
-- ==== Proof.Chain.lean ====
/-
  The kernel program's result as one formula of its arguments, read along its run.

  The run's buffer contents at each boundary are a fold from the launch memory: a host stretch applies its
  operations, a kernel region replaces its output arrays by what its write-backs leave. Reading the fold back from
  the result buffer: the normalisation kernel's output is the normalisation formula of the node map and of the mean,
  variance, scale and shift rows it finds; those rows are the host's reductions of the node kernel's per-tile sums
  (its mean and clipped variance) and the two reshaped arguments; the node kernel's outputs are the node map and
  its per-tile sums of the node array, the aggregate and the weights it finds; the aggregate is the host's scatter of
  the clipped messages, which are the host's gather of the node array plus the edge kernel's output; and that output
  is the edge-linear term. No stretch and no region writes an argument, so each is found as launched.
-/
import proofs.«412111_j7258494730825_3_alg».proof.Proof.Gen.KernelIdeal.Frame
import proofs.«412111_j7258494730825_3_alg».proof.Proof.Spec
import proofs.«412111_j7258494730825_3_alg».proof.Proof.Gather
import proofs.«412111_j7258494730825_3_alg».proof.Proof.Region0
import proofs.«412111_j7258494730825_3_alg».proof.Proof.Region1
import proofs.«412111_j7258494730825_3_alg».proof.Proof.Region2
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Chain

open Cert.KernelIdeal Cert.KernelIdeal.Gen

variable (m : (ℓ : Loc nD τ sig) → Buf (Elt Ideal) ℓ) (ρ : Dev nD → PrngReg)

/-- A host stretch leaves a buffer none of its operations writes. -/
macro "unwritten" "[" ops:ident "]" : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
/-! ## What each stretch and each region leaves alone -/

theorem keep1_arg0 (c : Dev nD) : W1 m ρ c (Proc.devRef .tc main_arg0) = W0 m ρ c (Proc.devRef .tc main_arg0) := by
  unwritten [hostOps0]
theorem keep1_arg2 (c : Dev nD) : W1 m ρ c (Proc.devRef .tc main_arg2) = W0 m ρ c (Proc.devRef .tc main_arg2) := by
  unwritten [hostOps0]
theorem keep1_arg3 (c : Dev nD) : W1 m ρ c (Proc.devRef .tc main_arg3) = W0 m ρ c (Proc.devRef .tc main_arg3) := by
  unwritten [hostOps0]
theorem keep1_arg5 (c : Dev nD) : W1 m ρ c (Proc.devRef .tc main_arg5) = W0 m ρ c (Proc.devRef .tc main_arg5) := by
  unwritten [hostOps0]
theorem keep1_arg6 (c : Dev nD) : W1 m ρ c (Proc.devRef .tc main_arg6) = W0 m ρ c (Proc.devRef .tc main_arg6) := by
  unwritten [hostOps0]
theorem keep1_arg7 (c : Dev nD) : W1 m ρ c (Proc.devRef .tc main_arg7) = W0 m ρ c (Proc.devRef .tc main_arg7) := by
  unwritten [hostOps0]
theorem keep1_arg8 (c : Dev nD) : W1 m ρ c (Proc.devRef .tc main_arg8) = W0 m ρ c (Proc.devRef .tc main_arg8) := by
  unwritten [hostOps0]
theorem keep2_arg0 (c : Dev nD) : W2 m ρ c (Proc.devRef .tc main_arg0) = W1 m ρ c (Proc.devRef .tc main_arg0) :=
  W2_of_ne m ρ c main_arg0 (by decide)
theorem keep2_v1 (c : Dev nD) : W2 m ρ c (Proc.devRef .tc main_v1) = W1 m ρ c (Proc.devRef .tc main_v1) :=
  W2_of_ne m ρ c main_v1 (by decide)
theorem keep2_v3 (c : Dev nD) : W2 m ρ c (Proc.devRef .tc main_v3) = W1 m ρ c (Proc.devRef .tc main_v3) :=
  W2_of_ne m ρ c main_v3 (by decide)
theorem keep2_arg5 (c : Dev nD) : W2 m ρ c (Proc.devRef .tc main_arg5) = W1 m ρ c (Proc.devRef .tc main_arg5) :=
  W2_of_ne m ρ c main_arg5 (by decide)
theorem keep2_arg6 (c : Dev nD) : W2 m ρ c (Proc.devRef .tc main_arg6) = W1 m ρ c (Proc.devRef .tc main_arg6) :=
  W2_of_ne m ρ c main_arg6 (by decide)
theorem keep2_arg7 (c : Dev nD) : W2 m ρ c (Proc.devRef .tc main_arg7) = W1 m ρ c (Proc.devRef .tc main_arg7) :=
  W2_of_ne m ρ c main_arg7 (by decide)
theorem keep2_arg8 (c : Dev nD) : W2 m ρ c (Proc.devRef .tc main_arg8) = W1 m ρ c (Proc.devRef .tc main_arg8) :=
  W2_of_ne m ρ c main_arg8 (by decide)
theorem keep3_arg0 (c : Dev nD) : W3 m ρ c (Proc.devRef .tc main_arg0) = W2 m ρ c (Proc.devRef .tc main_arg0) := by
  unwritten [hostOps1]
theorem keep3_v3 (c : Dev nD) : W3 m ρ c (Proc.devRef .tc main_v3) = W2 m ρ c (Proc.devRef .tc main_v3) := by
  unwritten [hostOps1]
theorem keep3_arg5 (c : Dev nD) : W3 m ρ c (Proc.devRef .tc main_arg5) = W2 m ρ c (Proc.devRef .tc main_arg5) := by
  unwritten [hostOps1]
theorem keep3_arg6 (c : Dev nD) : W3 m ρ c (Proc.devRef .tc main_arg6) = W2 m ρ c (Proc.devRef .tc main_arg6) := by
  unwritten [hostOps1]
theorem keep3_arg7 (c : Dev nD) : W3 m ρ c (Proc.devRef .tc main_arg7) = W2 m ρ c (Proc.devRef .tc main_arg7) := by
  unwritten [hostOps1]
theorem keep3_arg8 (c : Dev nD) : W3 m ρ c (Proc.devRef .tc main_arg8) = W2 m ρ c (Proc.devRef .tc main_arg8) := by
  unwritten [hostOps1]
theorem keep4_arg0 (c : Dev nD) : W4 m ρ c (Proc.devRef .tc main_arg0) = W3 m ρ c (Proc.devRef .tc main_arg0) := by
  unwritten [hostOps1_1]
theorem keep4_v3 (c : Dev nD) : W4 m ρ c (Proc.devRef .tc main_v3) = W3 m ρ c (Proc.devRef .tc main_v3) := by
  unwritten [hostOps1_1]
theorem keep4_arg5 (c : Dev nD) : W4 m ρ c (Proc.devRef .tc main_arg5) = W3 m ρ c (Proc.devRef .tc main_arg5) := by
  unwritten [hostOps1_1]
theorem keep4_arg6 (c : Dev nD) : W4 m ρ c (Proc.devRef .tc main_arg6) = W3 m ρ c (Proc.devRef .tc main_arg6) := by
  unwritten [hostOps1_1]
theorem keep4_arg7 (c : Dev nD) : W4 m ρ c (Proc.devRef .tc main_arg7) = W3 m ρ c (Proc.devRef .tc main_arg7) := by
  unwritten [hostOps1_1]
theorem keep4_arg8 (c : Dev nD) : W4 m ρ c (Proc.devRef .tc main_arg8) = W3 m ρ c (Proc.devRef .tc main_arg8) := by
  unwritten [hostOps1_1]
theorem keep5_arg0 (c : Dev nD) : W5 m ρ c (Proc.devRef .tc main_arg0) = W4 m ρ c (Proc.devRef .tc main_arg0) := by
  unwritten [hostOps1_2]
theorem keep5_arg5 (c : Dev nD) : W5 m ρ c (Proc.devRef .tc main_arg5) = W4 m ρ c (Proc.devRef .tc main_arg5) := by
  unwritten [hostOps1_2]
theorem keep5_arg7 (c : Dev nD) : W5 m ρ c (Proc.devRef .tc main_arg7) = W4 m ρ c (Proc.devRef .tc main_arg7) := by
  unwritten [hostOps1_2]
theorem keep5_arg8 (c : Dev nD) : W5 m ρ c (Proc.devRef .tc main_arg8) = W4 m ρ c (Proc.devRef .tc main_arg8) := by
  unwritten [hostOps1_2]
theorem keep6_arg7 (c : Dev nD) : W6 m ρ c (Proc.devRef .tc main_arg7) = W5 m ρ c (Proc.devRef .tc main_arg7) :=
  W6_of_ne m ρ c main_arg7 (by decide)
theorem keep6_arg8 (c : Dev nD) : W6 m ρ c (Proc.devRef .tc main_arg8) = W5 m ρ c (Proc.devRef .tc main_arg8) :=
  W6_of_ne m ρ c main_arg8 (by decide)
theorem keep7_v19_0 (c : Dev nD) : W7 m ρ c (Proc.devRef .tc main_v19_0) = W6 m ρ c (Proc.devRef .tc main_v19_0) := by
  unwritten [hostOps2]

/-! ## The arguments where they are read -/

theorem at1_arg2 (c : Dev nD) : W1 m ρ c (Proc.devRef .tc main_arg2) = m ((c : Thread nD τ).loc main_arg2) :=
  (keep1_arg2 m ρ c).trans rfl
theorem at1_arg3 (c : Dev nD) : W1 m ρ c (Proc.devRef .tc main_arg3) = m ((c : Thread nD τ).loc main_arg3) :=
  (keep1_arg3 m ρ c).trans rfl
theorem at2_arg0 (c : Dev nD) : W2 m ρ c (Proc.devRef .tc main_arg0) = m ((c : Thread nD τ).loc main_arg0) :=
  (keep2_arg0 m ρ c).trans <| (keep1_arg0 m ρ c).trans rfl
theorem at5_arg0 (c : Dev nD) : W5 m ρ c (Proc.devRef .tc main_arg0) = m ((c : Thread nD τ).loc main_arg0) :=
  (keep5_arg0 m ρ c).trans <| (keep4_arg0 m ρ c).trans <| (keep3_arg0 m ρ c).trans <| (keep2_arg0 m ρ c).trans <| (keep1_arg0 m ρ c).trans rfl
theorem at5_arg5 (c : Dev nD) : W5 m ρ c (Proc.devRef .tc main_arg5) = m ((c : Thread nD τ).loc main_arg5) :=
  (keep5_arg5 m ρ c).trans <| (keep4_arg5 m ρ c).trans <| (keep3_arg5 m ρ c).trans <| (keep2_arg5 m ρ c).trans <| (keep1_arg5 m ρ c).trans rfl
theorem at6_arg7 (c : Dev nD) : W6 m ρ c (Proc.devRef .tc main_arg7) = m ((c : Thread nD τ).loc main_arg7) :=
  (keep6_arg7 m ρ c).trans <| (keep5_arg7 m ρ c).trans <| (keep4_arg7 m ρ c).trans <| (keep3_arg7 m ρ c).trans <| (keep2_arg7 m ρ c).trans <| (keep1_arg7 m ρ c).trans rfl
theorem at6_arg8 (c : Dev nD) : W6 m ρ c (Proc.devRef .tc main_arg8) = m ((c : Thread nD τ).loc main_arg8) :=
  (keep6_arg8 m ρ c).trans <| (keep5_arg8 m ρ c).trans <| (keep4_arg8 m ρ c).trans <| (keep3_arg8 m ρ c).trans <| (keep2_arg8 m ρ c).trans <| (keep1_arg8 m ρ c).trans rfl

/-! ## The values along the run -/

/-- A [256] vector cast to [1, 256] is the vector read as a row. -/
theorem row_eq (v : FVec Ideal S256 .f32) : shapeCast S1x256 v shapeCasts_S256_S1x256 = Cert.Spec.row v := by
  funext i
  obtain ⟨p, q, rfl⟩ : ∃ (p : Fin 1) (q : Fin 256), i = ix2 p q := ⟨i 0, i 1, eq_ix2 i⟩
  exact shapeCast_a_1a_apply v _ p q

/-- The edge sources: row 0 of the index pairs. -/
theorem W1_v1 (c : Dev nD) : W1 m ρ c (Proc.devRef .tc main_v1)
    = shapeCast S300000 (extractStridedSlice S1x300000 ![0, 0] (m ((c : Thread nD τ).loc main_arg1)) slices_S2x300000_S1x300000_0_0) shapeCasts_S1x300000_S300000 := by
  show StableHlo.after hostOps0 (W0 m ρ c) (Proc.devRef .tc main_v1) = _
  after_results
  rfl

/-- The edge destinations: row 1 of the index pairs. -/
theorem W1_v3 (c : Dev nD) : W1 m ρ c (Proc.devRef .tc main_v3)
    = shapeCast S300000 (extractStridedSlice S1x300000 ![1, 0] (m ((c : Thread nD τ).loc main_arg1)) slices_S2x300000_S1x300000_1_0) shapeCasts_S1x300000_S300000 := by
  show StableHlo.after hostOps0 (W0 m ρ c) (Proc.devRef .tc main_v3) = _
  after_results
  rfl

/-- The edge bias as a row. -/
theorem W1_v4 (c : Dev nD) : W1 m ρ c (Proc.devRef .tc main_v4) = Cert.Spec.row (m ((c : Thread nD τ).loc main_arg4)) := by
  refine Eq.trans ?_ (row_eq _)
  show StableHlo.after hostOps0 (W0 m ρ c) (Proc.devRef .tc main_v4) = _
  after_results
  rfl

/-- The edge-linear term of the arguments. -/
abbrev linV (c : Dev nD) : FVec Ideal S300000x256 .f32 :=
  Cert.Spec.lin (m ((c : Thread nD τ).loc main_arg2)) (m ((c : Thread nD τ).loc main_arg3)) (Cert.Spec.row (m ((c : Thread nD τ).loc main_arg4)))

/-- After the edge kernel its output holds the edge-linear term. -/
theorem W2_v5 (c : Dev nD) : W2 m ρ c (Proc.devRef .tc main_v5) = linV m c := by
  refine (W2_arr m ρ c 3).trans ((Cert.KernelIdeal.Edge.final0 (V1 m ρ) c).trans ?_)
  have e2 : V1 m ρ c main_arg2 = m ((c : Thread nD τ).loc main_arg2) := at1_arg2 m ρ c
  have e3 : V1 m ρ c main_arg3 = m ((c : Thread nD τ).loc main_arg3) := at1_arg3 m ρ c
  have e4 : V1 m ρ c main_v4 = Cert.Spec.row (m ((c : Thread nD τ).loc main_arg4)) := W1_v4 m ρ c
  rw [e2, e3, e4]

/-- The gathered node rows, the messages and their accumulation, of the arguments. -/
abbrev gathV (c : Dev nD) : FVec Ideal S300000x256 .f32 :=
  Cert.Shared.gath (m ((c : Thread nD τ).loc main_arg0)) (m ((c : Thread nD τ).loc main_arg1))
abbrev msgV (c : Dev nD) : FVec Ideal S300000x256 .f32 := Cert.Spec.msgK (gathV m c) (linV m c)
abbrev aggV (c : Dev nD) : FVec Ideal S20000x256 .f32 := Cert.Shared.scat (m ((c : Thread nD τ).loc main_arg1)) (msgV m c)

/-- Before the node kernel the aggregate buffer holds the accumulated messages: the three host stretches between the
    two kernels, read back to the edge kernel's exit. -/
theorem W5_v17 (c : Dev nD) : W5 m ρ c (Proc.devRef .tc main_v17) = aggV m c := by
  show StableHlo.after hostOps1_2 (StableHlo.after hostOps1_1 (StableHlo.after hostOps1 (W2 m ρ c))) (Proc.devRef .tc main_v17) = _
  after_results
  rw [at2_arg0 m ρ c, (keep2_v1 m ρ c).trans (W1_v1 m ρ c), (keep2_v3 m ρ c).trans (W1_v3 m ρ c), W2_v5 m ρ c]
  rfl

theorem W5_v18 (c : Dev nD) : W5 m ρ c (Proc.devRef .tc main_v18) = Cert.Spec.row (m ((c : Thread nD τ).loc main_arg6)) := by
  refine Eq.trans ?_ (row_eq _)
  show StableHlo.after hostOps1_2 (StableHlo.after hostOps1_1 (StableHlo.after hostOps1 (W2 m ρ c))) (Proc.devRef .tc main_v18) = _
  after_results
  rw [(keep2_arg6 m ρ c).trans <| (keep1_arg6 m ρ c).trans rfl]
  rfl

/-- The node map of the arguments. -/
abbrev outV (c : Dev nD) : FVec Ideal S20000x256 .f32 :=
  Cert.Spec.node (m ((c : Thread nD τ).loc main_arg0)) (aggV m c) (m ((c : Thread nD τ).loc main_arg5)) (Cert.Spec.row (m ((c : Thread nD τ).loc main_arg6)))

theorem node_entry (c : Dev nD) :
    Cert.Spec.node (V5 m ρ c main_arg0) (V5 m ρ c main_v17) (V5 m ρ c main_arg5) (V5 m ρ c main_v18) = outV m c := by
  have e0 : V5 m ρ c main_arg0 = m ((c : Thread nD τ).loc main_arg0) := at5_arg0 m ρ c
  have e1 : V5 m ρ c main_v17 = aggV m c := W5_v17 m ρ c
  have e2 : V5 m ρ c main_arg5 = m ((c : Thread nD τ).loc main_arg5) := at5_arg5 m ρ c
  have e3 : V5 m ρ c main_v18 = Cert.Spec.row (m ((c : Thread nD τ).loc main_arg6)) := W5_v18 m ρ c
  rw [e0, e1, e2, e3]

theorem W6_v19_0 (c : Dev nD) : W6 m ρ c (Proc.devRef .tc main_v19_0) = outV m c :=
  (W6_arr m ρ c 4).trans ((Cert.KernelIdeal.Node.final1_4 (V5 m ρ) c).trans (node_entry m ρ c))

theorem W6_v19_1 (c : Dev nD) : W6 m ρ c (Proc.devRef .tc main_v19_1) = Cert.Spec.tileSum (outV m c) :=
  (W6_arr m ρ c 5).trans ((Cert.KernelIdeal.Node.final1_5 (V5 m ρ) c).trans (congrArg Cert.Spec.tileSum (node_entry m ρ c)))

theorem W6_v19_2 (c : Dev nD) : W6 m ρ c (Proc.devRef .tc main_v19_2) = Cert.Spec.tileSq (outV m c) :=
  (W6_arr m ρ c 6).trans ((Cert.KernelIdeal.Node.final1_6 (V5 m ρ) c).trans (congrArg Cert.Spec.tileSq (node_entry m ρ c)))

/-- The host's sum of a [10, 1, 256] array over its ten tiles at a column. -/
theorem tiles_sum (ps : FVec Ideal S10x1x256 .f32) (i : S1x256.Idx) :
    Host.reduceAdd ps (constant S_ .f32 0x00000000#32) reducesTo_S10x1x256_S1x256_d0 h_S_ i
      = Cert.Spec.zero32 + ∑ t : Fin 10, ps (ix3 t 0 (i 1)) := by
  simp only [Host.reduceAdd, Ideal.hostReduceAdd_def]
  rw [Ideal.hostReduceAdd_single reducesTo_S10x1x256_S1x256_d0 (by decide)]
  refine congrArg (_ + ·) (Finset.sum_congr rfl fun k _ => congrArg ps (funext fun a => Fin.ext ?_))
  match a with
  | ⟨0, _⟩ => rfl
  | ⟨1, _⟩ => show (i 0).val = 0; have h1 : (i 0).val < 1 := (i 0).isLt; omega
  | ⟨2, _⟩ => rfl

/-- The splat of the row count at an index. -/
theorem count_apply (i : S1x256.Idx) :
    broadcastInDim S1x256 ![] bcast_S_S1x256 (constant (F := Ideal) S_ .f32 0x469C4000#32) i = Cert.Spec.n32 :=
  broadcastInDim_apply _ bcast_S_S1x256 (constant (F := Ideal) S_ .f32 0x469C4000#32) i ix0 (fun a => a.elim0)

/-- The host's sum over the ten tiles, divided by the row count, is the kernel's mean. -/
theorem mean_eq (ps : FVec Ideal S10x1x256 .f32) :
    Host.divf (Host.reduceAdd ps (constant S_ .f32 0x00000000#32) reducesTo_S10x1x256_S1x256_d0 h_S_)
      (broadcastInDim S1x256 ![] bcast_S_S1x256 (constant S_ .f32 0x469C4000#32)) = Cert.Spec.meanK ps := by
  funext i
  show Ideal.div (Host.reduceAdd ps (constant S_ .f32 0x00000000#32) reducesTo_S10x1x256_S1x256_d0 h_S_ i)
      (broadcastInDim S1x256 ![] bcast_S_S1x256 (constant (F := Ideal) S_ .f32 0x469C4000#32) i) = _
  rw [tiles_sum, count_apply]
  rfl

/-- The host's variance from the two partial-sum arrays is the kernel's. -/
theorem var_eq (ps pq : FVec Ideal S10x1x256 .f32) :
    (maximumf (subf (Cert.Spec.meanK pq : FVec Ideal S1x256 .f32) (mulf (Cert.Spec.meanK ps : FVec Ideal S1x256 .f32) (Cert.Spec.meanK ps)))
      (broadcastInDim S1x256 ![] bcast_S_S1x256 (constant S_ .f32 0x00000000#32)) : FVec Ideal S1x256 .f32) = Cert.Spec.varK ps pq := by
  funext i
  show max (Cert.Spec.meanK pq i - Cert.Spec.meanK ps i * Cert.Spec.meanK ps i)
      (broadcastInDim S1x256 ![] bcast_S_S1x256 (constant (F := Ideal) S_ .f32 0x00000000#32) i) = _
  rw [broadcastInDim_apply _ bcast_S_S1x256 (constant (F := Ideal) S_ .f32 0x00000000#32) i ix0 (fun a => a.elim0)]
  rfl

/-- Before the normalisation kernel: the node map, the mean row, the variance row, the scale and the shift rows. -/
theorem W7_v19_0 (c : Dev nD) : W7 m ρ c (Proc.devRef .tc main_v19_0) = outV m c :=
  (keep7_v19_0 m ρ c).trans (W6_v19_0 m ρ c)

theorem W7_v23 (c : Dev nD) : W7 m ρ c (Proc.devRef .tc main_v23) = Cert.Spec.meanK (Cert.Spec.tileSum (outV m c)) := by
  refine Eq.trans ?_ (mean_eq _)
  show StableHlo.after hostOps2 (W6 m ρ c) (Proc.devRef .tc main_v23) = _
  after_results
  rw [W6_v19_1 m ρ c]

theorem W7_v29 (c : Dev nD) : W7 m ρ c (Proc.devRef .tc main_v29)
    = Cert.Spec.varK (Cert.Spec.tileSum (outV m c)) (Cert.Spec.tileSq (outV m c)) := by
  refine Eq.trans ?_ (var_eq _ _)
  show StableHlo.after hostOps2 (W6 m ρ c) (Proc.devRef .tc main_v29) = _
  after_results
  rw [W6_v19_1 m ρ c, W6_v19_2 m ρ c, mean_eq, mean_eq]

theorem W7_v30 (c : Dev nD) : W7 m ρ c (Proc.devRef .tc main_v30) = Cert.Spec.row (m ((c : Thread nD τ).loc main_arg7)) := by
  refine Eq.trans ?_ (row_eq _)
  show StableHlo.after hostOps2 (W6 m ρ c) (Proc.devRef .tc main_v30) = _
  after_results
  rw [at6_arg7 m ρ c]
  rfl

theorem W7_v31 (c : Dev nD) : W7 m ρ c (Proc.devRef .tc main_v31) = Cert.Spec.row (m ((c : Thread nD τ).loc main_arg8)) := by
  refine Eq.trans ?_ (row_eq _)
  show StableHlo.after hostOps2 (W6 m ρ c) (Proc.devRef .tc main_v31) = _
  after_results
  rw [at6_arg8 m ρ c]
  rfl

/-- The kernel's result as the kernel formula of the argument arrays. -/
abbrev resultV (c : Dev nD) : Buf (Elt Ideal) ((c.tc : Thread nD τ).loc main_v32) :=
  Cert.Spec.kernelSpec (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))
    (Cert.Shared.gath (m ((c : Thread nD τ).loc main_arg0)) (m ((c : Thread nD τ).loc main_arg1)))
    (Cert.Shared.scat (m ((c : Thread nD τ).loc main_arg1)))

/-- At the last boundary the result buffer holds the kernel formula of the arguments. -/
theorem W8_result (c : Dev nD) : W8 m ρ c (Proc.devRef .tc main_v32) = resultV m c := by
  refine (W8_arr m ρ c 5).trans ((Cert.KernelIdeal.Norm.final2 (V7 m ρ) c).trans ?_)
  have e0 : V7 m ρ c main_v19_0 = outV m c := W7_v19_0 m ρ c
  have e1 : V7 m ρ c main_v23 = Cert.Spec.meanK (Cert.Spec.tileSum (outV m c)) := W7_v23 m ρ c
  have e2 : V7 m ρ c main_v29 = Cert.Spec.varK (Cert.Spec.tileSum (outV m c)) (Cert.Spec.tileSq (outV m c)) := W7_v29 m ρ c
  have e3 : V7 m ρ c main_v30 = Cert.Spec.row (m ((c : Thread nD τ).loc main_arg7)) := W7_v30 m ρ c
  have e4 : V7 m ρ c main_v31 = Cert.Spec.row (m ((c : Thread nD τ).loc main_arg8)) := W7_v31 m ρ c
  rw [e0, e1, e2, e3, e4]
  rfl

end Cert.KernelIdeal.Chain

end
-- ==== Proof.RefValue.lean ====
/-
  The reference's result, read off its run one operation at a time, is the reference formula of the argument arrays,
  with the gathered rows and the accumulation the same host terms as the kernel's program uses.
-/
import proofs.«412111_j7258494730825_3_alg».proof.Proof.Gen.ReferenceIdeal.Run
import proofs.«412111_j7258494730825_3_alg».proof.Proof.Gen.ReferenceIdeal.Read
import proofs.«412111_j7258494730825_3_alg».proof.Proof.Spec
import proofs.«412111_j7258494730825_3_alg».proof.Proof.Gather

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-! ## The two host stages both programs share

The reference forms the gather's start indices and the scatter's indices from the index pairs by the same slices,
the same wrap of a negative index by the node count and the same reshapes as the shared terms do, over shape records
that agree field by field; the side facts differ only as proofs of the same propositions. -/

/-- The reference's gathered rows are the shared gather of the node array at the wrapped source indices. -/
private theorem gath_eq (x0 : (⟨S20000x256, .f32⟩ : BufTy).Contents (Elt Ideal)) (x1 : (⟨S2x300000, .i32⟩ : BufTy).Contents (Elt Ideal)) :
    Read.val_main_v10 (F := Ideal) x0 x1 = Cert.Shared.gath x0 x1 := by
  unfold Read.val_main_v10 Read.val_main_v9 Read.val_main_v8 Read.val_main_v7 Read.val_main_v5 Read.val_main_v6 Read.val_main_v4
    Read.val_main_c_0 Read.val_main_c Read.val_main_v1 Read.val_main_v0 Cert.Shared.gath Cert.Shared.srcIdx
  rfl

/-- The reference's accumulation, as a function of the message rows, is the shared accumulation into the zero array at the
    destination indices. -/
private theorem scat_eq (x1 : (⟨S2x300000, .i32⟩ : BufTy).Contents (Elt Ideal)) :
    (fun u => Host.scatterAdd scatter_S20000x256_S300000x1_S300000x256_1_0_0_1 (Read.val_main_v17 (F := Ideal)) (Read.val_main_v18 (F := Ideal) x1) u)
      = Cert.Shared.scat x1 := by
  unfold Read.val_main_v17 Read.val_main_cst Read.val_main_v18 Read.val_main_v3 Read.val_main_v2 Cert.Shared.scat Cert.Shared.dstIdx
  rfl

/-! ## The indices the stages read, as coordinates

A contraction at (e, j) reads its left operand at (e, k) and its right operand at (k, j); a column sum at j reads (n, j);
a vector broadcast along the columns of a row is read at the column. -/

private theorem lidx11 (i : S300000x256.Idx) (k : Fin 64) : (Read.lidx_main_v11 i k : S300000x64.Idx) = ix2 (i 0) k :=
  funext fun a => Fin.ext (by match a with | ⟨0, _⟩ => rfl | ⟨1, _⟩ => rfl)
private theorem ridx11 (i : S300000x256.Idx) (k : Fin 64) : (Read.ridx_main_v11 i k : S64x256.Idx) = ix2 k (i 1) :=
  funext fun a => Fin.ext (by match a with | ⟨0, _⟩ => rfl | ⟨1, _⟩ => rfl)
private theorem idx13 (j : S1x256.Idx) : (Read.idx_main_v13 j : S256.Idx) = ix1 (j 1) :=
  funext fun a => Fin.ext (by match a with | ⟨0, _⟩ => rfl)
private theorem lidx23 (i : S20000x256.Idx) (k : Fin 256) : (Read.lidx_main_v23 i k : S20000x256.Idx) = ix2 (i 0) k :=
  funext fun a => Fin.ext (by match a with | ⟨0, _⟩ => rfl | ⟨1, _⟩ => rfl)
private theorem ridx23 (i : S20000x256.Idx) (k : Fin 256) : (Read.ridx_main_v23 i k : S256x256.Idx) = ix2 k (i 1) :=
  funext fun a => Fin.ext (by match a with | ⟨0, _⟩ => rfl | ⟨1, _⟩ => rfl)
private theorem idx24 (j : S1x256.Idx) : (Read.idx_main_v24 j : S256.Idx) = ix1 (j 1) :=
  funext fun a => Fin.ext (by match a with | ⟨0, _⟩ => rfl)
private theorem idx27 (j : S256.Idx) (k : Fin 20000) : (Read.idx_main_v27 j k : S20000x256.Idx) = ix2 k (j 0) :=
  funext fun a => Fin.ext (by match a with | ⟨0, _⟩ => rfl | ⟨1, _⟩ => rfl)
private theorem idx34 (j : S256.Idx) (k : Fin 20000) : (Read.idx_main_v34 j k : S20000x256.Idx) = ix2 k (j 0) :=
  funext fun a => Fin.ext (by match a with | ⟨0, _⟩ => rfl | ⟨1, _⟩ => rfl)
private theorem idx46 (j : S1x256.Idx) : (Read.idx_main_v46 j : S256.Idx) = ix1 (j 1) :=
  funext fun a => Fin.ext (by match a with | ⟨0, _⟩ => rfl)
private theorem idx49 (j : S1x256.Idx) : (Read.idx_main_v49 j : S256.Idx) = ix1 (j 1) :=
  funext fun a => Fin.ext (by match a with | ⟨0, _⟩ => rfl)

/-! ## The stages, in program order -/

/-- The messages at (e, j): the gathered entry plus row e of ea against column j of we, plus the bias at j, clipped below at
    zero. The bias vector reaches (e, j) through two broadcasts, first to a row and then down the edges, so it is read at j. -/
private theorem msg_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) :
    Read.val_main_v16 (F := Ideal) x0 x1 x2 x3 x4
      = Cert.Spec.msgR (Cert.Shared.gath x0 x1) x2 x3 (Cert.Spec.row x4) := by
  funext i
  rw [Read.val_main_v16_apply, Read.val_main_v15_apply, Read.val_main_v12_apply, Read.val_main_v11_apply, Read.val_main_v14_apply,
    Read.val_main_v13_apply, Read.val_main_call0_v0_apply, Read.val_main_call0_cst_apply, gath_eq]
  generalize Cert.Shared.gath x0 x1 = g
  simp only [Ideal.maximumf_def, Ideal.addf_def, Ideal.ofBits_def, lidx11, ridx11, idx13]
  rfl

/-- The messages accumulated into their destination nodes. -/
private theorem agg_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) :
    Read.val_main_v19 (F := Ideal) x0 x1 x2 x3 x4
      = Cert.Shared.scat x1 (Cert.Spec.msgR (Cert.Shared.gath x0 x1) x2 x3 (Cert.Spec.row x4)) := by
  unfold Read.val_main_v19
  rw [msg_eq]
  exact congrFun (scat_eq x1) _

/-- The node map at (n, j): row n of one times x plus the accumulated messages, against column j of w, plus the bias at j. -/
private theorem node_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    Read.val_main_v26 (F := Ideal) x0 x1 x2 x3 x4 x5 x6
      = Cert.Spec.node x0 (Cert.Shared.scat x1 (Cert.Spec.msgR (Cert.Shared.gath x0 x1) x2 x3 (Cert.Spec.row x4))) x5 (Cert.Spec.row x6) := by
  funext i
  rw [Read.val_main_v26_apply, Read.val_main_v23_apply, Read.val_main_v25_apply, Read.val_main_v24_apply]
  simp only [Read.val_main_v22_apply, Read.val_main_v21_apply, Read.val_main_v20_apply, Read.val_main_cst_1_apply, agg_eq]
  generalize Cert.Shared.scat x1 (Cert.Spec.msgR (Cert.Shared.gath x0 x1) x2 x3 (Cert.Spec.row x4)) = agg
  simp only [Ideal.addf_def, Ideal.mulf_def, Ideal.ofBits_def, lidx23, ridx23, idx24]
  rfl

/-- The mean at column j: zero plus the sum of the node map's column j over the 20000 nodes, divided by the node count.
    The node map stays one folded term o here and below. -/
private theorem mean_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (j : S256.Idx) :
    Read.val_main_v29 (F := Ideal) x0 x1 x2 x3 x4 x5 x6 j
      = Cert.Spec.meanR (Read.val_main_v26 (F := Ideal) x0 x1 x2 x3 x4 x5 x6) (ix2 0 (j 0)) := by
  rw [Read.val_main_v29_apply, Read.val_main_v27_apply, Read.val_main_v28_apply, Read.val_main_cst_2_apply, Read.val_main_cst_3_apply]
  generalize Read.val_main_v26 (F := Ideal) x0 x1 x2 x3 x4 x5 x6 = o
  simp only [Ideal.hostDivf_def, Ideal.ofBits_def, idx27]
  rfl

/-- The variance at column j: zero plus the sum over the nodes of the squared deviation of o (n, j) from the mean at j, divided
    by the node count. The mean reaches (n, j) through a broadcast to a row and one down the nodes, so it is the mean at j. -/
private theorem var_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (j : S256.Idx) :
    Read.val_main_v36 (F := Ideal) x0 x1 x2 x3 x4 x5 x6 j
      = Cert.Spec.varR (Read.val_main_v26 (F := Ideal) x0 x1 x2 x3 x4 x5 x6) (ix2 0 (j 0)) := by
  rw [Read.val_main_v36_apply, Read.val_main_v34_apply, Read.val_main_v35_apply, Read.val_main_cst_4_apply, Read.val_main_cst_5_apply]
  simp only [Read.val_main_v33_apply, Read.val_main_v32_apply, Read.val_main_v31_apply, Read.val_main_v30_apply, mean_eq]
  generalize Read.val_main_v26 (F := Ideal) x0 x1 x2 x3 x4 x5 x6 = o
  simp only [Ideal.hostDivf_def, Ideal.mulf_def, Ideal.subf_def, Ideal.ofBits_def, idx34]
  rfl

/-- The last stage at (n, j): the deviation of o (n, j) from the mean at j, times the reciprocal square root of the variance at j
    plus epsilon, times the scale at j, plus the shift at j, clipped below at zero; with o the node map this is the reference
    formula. -/
private theorem ref_eq (x0 : (⟨S20000x256, .f32⟩ : BufTy).Contents (Elt Ideal)) (x1 : (⟨S2x300000, .i32⟩ : BufTy).Contents (Elt Ideal)) (x2 : (⟨S300000x64, .f32⟩ : BufTy).Contents (Elt Ideal)) (x3 : (⟨S64x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) :
    Read.val_main_v52 (F := Ideal) x0 x1 x2 x3 x4 x5 x6 x7 x8
      = Cert.Spec.refSpec x0 x2 x3 x4 x5 x6 x7 x8 (Cert.Shared.gath x0 x1) (Cert.Shared.scat x1) := by
  funext i
  rw [Read.val_main_v52_apply, Read.val_main_v51_apply, Read.val_main_v48_apply, Read.val_main_v45_apply, Read.val_main_v39_apply,
    Read.val_main_v38_apply, Read.val_main_v37_apply, Read.val_main_v44_apply, Read.val_main_v43_apply, Read.val_main_v42_apply,
    Read.val_main_v41_apply, Read.val_main_v40_apply, Read.val_main_cst_6_apply, Read.val_main_v47_apply, Read.val_main_v46_apply,
    Read.val_main_v50_apply, Read.val_main_v49_apply, Read.val_main_call1_v0_apply, Read.val_main_call1_cst_apply, mean_eq, var_eq]
  unfold Cert.Spec.refSpec
  rw [← node_eq]
  generalize Read.val_main_v26 (F := Ideal) x0 x1 x2 x3 x4 x5 x6 = o
  simp only [Ideal.maximumf_def, Ideal.addf_def, Ideal.mulf_def, Ideal.subf_def, Ideal.hostUnary_rsqrt_def, Ideal.ofBits_def, idx46, idx49]
  rfl

/-- The reference run's result term is the reference formula of the arguments. -/
theorem result_eq (m : (ℓ : Loc nD τ sig) → Buf (Elt Ideal) ℓ) (c : Dev nD) :
    Cert.ReferenceIdeal.Value.res_out0 (F := Ideal) m c
      = Cert.Spec.refSpec (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (Cert.Shared.gath (m ((c.tc : Thread nD τ).loc main_arg0)) (m ((c.tc : Thread nD τ).loc main_arg1)))
          (Cert.Shared.scat (m ((c.tc : Thread nD τ).loc main_arg1))) :=
  (Read.val_main_v52_eq m c).trans (ref_eq _ _ _ _ _ _ _ _ _)

end Cert.ReferenceIdeal.RefValue

end
-- ==== Proof.lean ====
/-
  The certificate: a graph layer (edge-linear term, messages, accumulation into nodes, node map, batch
  normalisation, clip at zero) computed by three tiled kernels around a host gather and scatter, against the same
  layer written with whole-array operations.

  The three frames: the kernel's two programs have their generated frames; the reference's is its generated run with
  the result dropped. The idealization rewrote nothing. The value claim: the kernel's result array is read off the run of
  its three regions and the host stretches between them as one formula of the argument arrays; the reference's result is
  read off its run as another; on finite arguments the two formulas agree, because the per-tile sums add up to the whole
  sums and, on real values, the mean of the squares minus the squared mean is the mean squared deviation and is not
  negative.
-/
import proofs.«412111_j7258494730825_3_alg».proof.Defs
import proofs.«412111_j7258494730825_3_alg».proof.Proof.Gen.Kernel
import proofs.«412111_j7258494730825_3_alg».proof.Proof.Gen.Kernel.Skeleton
import proofs.«412111_j7258494730825_3_alg».proof.Proof.Gen.Kernel.Launch
import proofs.«412111_j7258494730825_3_alg».proof.Proof.Gen.Kernel.Points
import proofs.«412111_j7258494730825_3_alg».proof.Proof.Gen.Kernel.Frame
import proofs.«412111_j7258494730825_3_alg».proof.Proof.Gen.KernelIdeal
import proofs.«412111_j7258494730825_3_alg».proof.Proof.Gen.KernelIdeal.Skeleton
import proofs.«412111_j7258494730825_3_alg».proof.Proof.Gen.KernelIdeal.Launch
import proofs.«412111_j7258494730825_3_alg».proof.Proof.Gen.KernelIdeal.Points
import proofs.«412111_j7258494730825_3_alg».proof.Proof.Gen.KernelIdeal.Frame
import proofs.«412111_j7258494730825_3_alg».proof.Proof.Gen.ReferenceIdeal
import proofs.«412111_j7258494730825_3_alg».proof.Proof.Gen.ReferenceIdeal.Run
import proofs.«412111_j7258494730825_3_alg».proof.Proof.Gen.Pre_finite_inputs
import proofs.«412111_j7258494730825_3_alg».proof.Proof.Spec
import proofs.«412111_j7258494730825_3_alg».proof.Proof.Algebra
import proofs.«412111_j7258494730825_3_alg».proof.Proof.Gather
import proofs.«412111_j7258494730825_3_alg».proof.Proof.Finite
import proofs.«412111_j7258494730825_3_alg».proof.Proof.KernelRun
import proofs.«412111_j7258494730825_3_alg».proof.Proof.Chain
import proofs.«412111_j7258494730825_3_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From arguments that agree and are finite, both programs end with the same result array: the kernel's formula of
    the arguments, which on real arguments is the reference's. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Chain.resultV m c, ?_, ?_⟩
  · exact (θ_run Cert.KernelIdeal.defs _ _).mono (fun r h c => ⟨(h c).1.trans (Cert.KernelIdeal.Chain.W8_result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    obtain ⟨r0, r2, r3, r4, r5, r6⟩ := Cert.Finite.inputs_real _ _ _ _ _ _ _ _ _ (hpre c)
    refine (Cert.ReferenceIdeal.RefValue.result_eq m' c).trans ?_
    rw [h0, h1, h2, h3, h4, h5, h6, h7, h8]
    exact (Cert.Spec.kernelSpec_eq_refSpec _ _ _ _ _ _ _ _ _ _ r0 r2 r3 r4 r5 r6
      (Cert.Shared.gath_real _ _ r0) (fun u hu => Cert.Shared.scat_real _ u hu)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
